-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x600000 : Shape := ⟨2, ![2, 600000]⟩
abbrev S600000x1 : Shape := ⟨2, ![600000, 1]⟩
abbrev S9x128 : Shape := ⟨2, ![9, 128]⟩
abbrev S128 : Shape := ⟨1, ![128]⟩
abbrev S128x128 : Shape := ⟨2, ![128, 128]⟩
abbrev S257x128 : Shape := ⟨2, ![257, 128]⟩
abbrev S256x128 : Shape := ⟨2, ![256, 128]⟩
abbrev S128x6 : Shape := ⟨2, ![128, 6]⟩
abbrev S6 : Shape := ⟨1, ![6]⟩
abbrev S_ : Shape := ⟨0, ![]⟩

class Facts : Prop where
  bcast_S_S50000x9 : S_.BroadcastsInDim S50000x9 (![] : Fin 0 → Fin S50000x9.rank)
  reducesTo_S50000x9_S_d0_1 : S50000x9.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S257x128 : S_.BroadcastsInDim S257x128 (![] : Fin 0 → Fin S257x128.rank)
  reducesTo_S257x128_S_d0_1 : S257x128.ReducesTo [0, 1] S_
  bcast_S_S256x128 : S_.BroadcastsInDim S256x128 (![] : Fin 0 → Fin S256x128.rank)
  reducesTo_S256x128_S_d0_1 : S256x128.ReducesTo [0, 1] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_
  bcast_S_S2x600000 : S_.BroadcastsInDim S2x600000 (![] : Fin 0 → Fin S2x600000.rank)
  reducesTo_S2x600000_S_d0_1 : S2x600000.ReducesTo [0, 1] S_

variable [Facts]

def fn_part4 {F : FTy → Type} [FloatOps F] (main_arg1 : IVec S2x600000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x600000 32 := broadcastInDim S2x600000 ![] bcast_S_S2x600000 main_c_26
  let main_v70 : IVec S2x600000 1 := cmpi .sge main_arg1 main_v69
  let main_c_27 : IVec S_ 32 := constantI S_ 32 50000#32
  let main_v71 : IVec S2x600000 32 := broadcastInDim S2x600000 ![] bcast_S_S2x600000 main_c_27
  let main_v72 : IVec S2x600000 1 := cmpi .slt main_arg1 main_v71
  let main_v73 : IVec S2x600000 1 := andi main_v70 main_v72
  let main_c_28 : IVec S_ 1 := constantI S_ 1 1#1
  let main_v74 : IVec S_ 1 := (fun x v => Host.reduce IntOp.andi x v reducesTo_S2x600000_S_d0_1 h_S_) main_v73 main_c_28
  let main_v75 : IVec S_ 1 := andi main_v68 main_v74
  main_v75

def fn_part3 {F : FTy → Type} [FloatOps F] (main_arg1 : IVec S2x600000 32) (main_arg12 : FVec F S128 .f32) (main_arg13 : FVec F S128x6 .f32) (main_arg14 : FVec F S6 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x6 .f32 := Host.absf main_arg13
  let main_cst_22 : FVec F S_ .f32 := constant S_ .f32 0x7F800000#32
  let main_v60 : FVec F S128x6 .f32 := broadcastInDim S128x6 ![] bcast_S_S128x6 main_cst_22
  let main_v61 : IVec S128x6 1 := cmpf .olt main_v59 main_v60
  let main_c_23 : IVec S_ 1 := constantI S_ 1 1#1
  let main_v62 : IVec S_ 1 := (fun x v => Host.reduce IntOp.andi x v reducesTo_S128x6_S_d0_1 h_S_) main_v61 main_c_23
  let main_v63 : IVec S_ 1 := andi main_v58 main_v62
  let main_v64 : FVec F S6 .f32 := Host.absf main_arg14
  let main_cst_24 : FVec F S_ .f32 := constant S_ .f32 0x7F800000#32
  let main_v65 : FVec F S6 .f32 := broadcastInDim S6 ![] bcast_S_S6 main_cst_24
  let main_v66 : IVec S6 1 := cmpf .olt main_v64 main_v65
  let main_c_25 : IVec S_ 1 := constantI S_ 1 1#1
  let main_v67 : IVec S_ 1 := (fun x v => Host.reduce IntOp.andi x v reducesTo_S6_S_d0 h_S_) main_v66 main_c_25
  fn_part4 (F := F) main_arg1 main_v63 main_v67

def fn_part2 {F : FTy → Type} [FloatOps F] (main_arg1 : IVec S2x600000 32) (main_arg8 : FVec F S128 .f32) (main_arg9 : FVec F S128x128 .f32) (main_arg10 : FVec F S128 .f32) (main_arg11 : FVec F S256x128 .f32) (main_arg12 : FVec F S128 .f32) (main_arg13 : FVec F S128x6 .f32) (main_arg14 : FVec F S6 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg1 main_arg12 main_arg13 main_arg14 main_v48 main_v49 main_v50

def fn_part1 {F : FTy → Type} [FloatOps F] (main_arg1 : IVec S2x600000 32) (main_arg5 : FVec F S128x128 .f32) (main_arg6 : FVec F S128 .f32) (main_arg7 : FVec F S257x128 .f32) (main_arg8 : FVec F S128 .f32) (main_arg9 : FVec F S128x128 .f32) (main_arg10 : FVec F S128 .f32) (main_arg11 : FVec F S256x128 .f32) (main_arg12 : FVec F S128 .f32) (main_arg13 : FVec F S128x6 .f32) (main_arg14 : FVec F S6 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S257x128 .f32 := Host.absf main_arg7
  let main_cst_10 : FVec F S_ .f32 := constant S_ .f32 0x7F800000#32
  let main_v30 : FVec F S257x128 .f32 := broadcastInDim S257x128 ![] bcast_S_S257x128 main_cst_10
  let main_v31 : IVec S257x128 1 := cmpf .olt main_v29 main_v30
  let main_c_11 : IVec S_ 1 := constantI S_ 1 1#1
  let main_v32 : IVec S_ 1 := (fun x v => Host.reduce IntOp.andi x v reducesTo_S257x128_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x9 .f32) (main_arg1 : IVec S2x600000 32) (main_arg2 : FVec F S600000x1 .f32) (main_arg3 : FVec F S9x128 .f32) (main_arg4 : FVec F S128 .f32) (main_arg5 : FVec F S128x128 .f32) (main_arg6 : FVec F S128 .f32) (main_arg7 : FVec F S257x128 .f32) (main_arg8 : FVec F S128 .f32) (main_arg9 : FVec F S128x128 .f32) (main_arg10 : FVec F S128 .f32) (main_arg11 : FVec F S256x128 .f32) (main_arg12 : FVec F S128 .f32) (main_arg13 : FVec F S128x6 .f32) (main_arg14 : FVec F S6 .f32) : IVec S_ 1 :=
  let main_v0 : FVec F S50000x9 .f32 := Host.absf main_arg0
  let main_cst : FVec F S_ .f32 := constant S_ .f32 0x7F800000#32
  let main_v1 : FVec F S50000x9 .f32 := broadcastInDim S50000x9 ![] bcast_S_S50000x9 main_cst
  let main_v2 : IVec S50000x9 1 := cmpf .olt main_v0 main_v1
  let main_c : IVec S_ 1 := constantI S_ 1 1#1
  let main_v3 : IVec S_ 1 := (fun x v => Host.reduce IntOp.andi x v reducesTo_S50000x9_S_d0_1 h_S_) main_v2 main_c
  let main_v4 : FVec F S600000x1 .f32 := Host.absf main_arg2
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S9x128 .f32 := Host.absf main_arg3
  let main_cst_2 : FVec F S_ .f32 := constant S_ .f32 0x7F800000#32
  let main_v10 : FVec F S9x128 .f32 := broadcastInDim S9x128 ![] bcast_S_S9x128 main_cst_2
  let main_v11 : IVec S9x128 1 := cmpf .olt main_v9 main_v10
  let main_c_3 : IVec S_ 1 := constantI S_ 1 1#1
  let main_v12 : IVec S_ 1 := (fun x v => Host.reduce IntOp.andi x v reducesTo_S9x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x9 : Shape := ⟨2, ![50000, 9]⟩
abbrev S2x600000 : Shape := ⟨2, ![2, 600000]⟩
abbrev S600000x1 : Shape := ⟨2, ![600000, 1]⟩
abbrev S9x128 : Shape := ⟨2, ![9, 128]⟩
abbrev S128 : Shape := ⟨1, ![128]⟩
abbrev S128x128 : Shape := ⟨2, ![128, 128]⟩
abbrev S257x128 : Shape := ⟨2, ![257, 128]⟩
abbrev S256x128 : Shape := ⟨2, ![256, 128]⟩
abbrev S128x6 : Shape := ⟨2, ![128, 6]⟩
abbrev S6 : Shape := ⟨1, ![6]⟩
abbrev S50000x128 : Shape := ⟨2, ![50000, 128]⟩
abbrev S10000x9 : Shape := ⟨2, ![10000, 9]⟩
abbrev S10000x128 : Shape := ⟨2, ![10000, 128]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S1 : Shape := ⟨1, ![1]⟩
abbrev S1x1 : Shape := ⟨2, ![1, 1]⟩
abbrev S600000x128 : Shape := ⟨2, ![600000, 128]⟩
abbrev S12000x128 : Shape := ⟨2, ![12000, 128]⟩
abbrev S12000x1 : Shape := ⟨2, ![12000, 1]⟩
abbrev S50000x6 : Shape := ⟨2, ![50000, 6]⟩
abbrev S10000x6 : Shape := ⟨2, ![10000, 6]⟩
abbrev S1x6 : Shape := ⟨2, ![1, 6]⟩

abbrev nBuf : Space → Nat
  | .hbm => 77
  | .vmem => 33
  | .smem => 0
  | _ => 0

abbrev bufTy : (tb : Table) → Fin (tcTables nBuf tb) → BufTy
  | .hbm, ⟨0, _⟩ => ⟨S50000x9, .f32⟩
  | .hbm, ⟨1, _⟩ => ⟨S2x600000, .i32⟩
  | .hbm, ⟨2, _⟩ => ⟨S600000x1, .f32⟩
  | .hbm, ⟨3, _⟩ => ⟨S9x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S257x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x6, .f32⟩
  | .hbm, ⟨14, _⟩ => ⟨S6, .f32⟩
  | .hbm, ⟨15, _⟩ => ⟨S50000x128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S1, .i32⟩
  | .hbm, ⟨29, _⟩ => ⟨S_, .i32⟩
  | .hbm, ⟨30, _⟩ => ⟨S600000x1, .i32⟩
  | .hbm, ⟨31, _⟩ => ⟨S600000x1, .i1⟩
  | .hbm, ⟨32, _⟩ => ⟨S1x1, .i32⟩
  | .hbm, ⟨33, _⟩ => ⟨S600000x1, .i32⟩
  | .hbm, ⟨34, _⟩ => ⟨S600000x1, .i1⟩
  | .hbm, ⟨35, _⟩ => ⟨S600000x1, .i1⟩
  | .hbm, ⟨36, _⟩ => ⟨S_, .i1⟩
  | .hbm, ⟨37, _⟩ => ⟨S600000, .i1⟩
  | .hbm, ⟨38, _⟩ => ⟨S600000x128, .f32⟩
  | .hbm, ⟨39, _⟩ => ⟨S600000x128, .i1⟩
  | .hbm, ⟨40, _⟩ => ⟨S_, .f32⟩
  | .hbm, ⟨41, _⟩ => ⟨S600000x128, .f32⟩
  | .hbm, ⟨42, _⟩ => ⟨S600000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S1, .i32⟩
  | .hbm, ⟨52, _⟩ => ⟨S_, .i32⟩
  | .hbm, ⟨53, _⟩ => ⟨S600000x1, .i32⟩
  | .hbm, ⟨54, _⟩ => ⟨S600000x1, .i1⟩
  | .hbm, ⟨55, _⟩ => ⟨S1x1, .i32⟩
  | .hbm, ⟨56, _⟩ => ⟨S600000x1, .i32⟩
  | .hbm, ⟨57, _⟩ => ⟨S600000x1, .i1⟩
  | .hbm, ⟨58, _⟩ => ⟨S600000x1, .i1⟩
  | .hbm, ⟨59, _⟩ => ⟨S_, .i1⟩
  | .hbm, ⟨60, _⟩ => ⟨S600000, .i1⟩
  | .hbm, ⟨61, _⟩ => ⟨S600000x128, .f32⟩
  | .hbm, ⟨62, _⟩ => ⟨S600000x128, .i1⟩
  | .hbm, ⟨63, _⟩ => ⟨S_, .f32⟩
  | .hbm, ⟨64, _⟩ => ⟨S600000x128, .f32⟩
  | .hbm, ⟨65, _⟩ => ⟨S600000x128, .f32⟩
  | .hbm, ⟨66, _⟩ => ⟨S128x128, .f32⟩
  | .hbm, ⟨67, _⟩ => ⟨S128x128, .f32⟩
  | .hbm, ⟨68, _⟩ => ⟨S1x128, .f32⟩
  | .hbm, ⟨69, _⟩ => ⟨S600000x128, .f32⟩
  | .hbm, ⟨70, _⟩ => ⟨S_, .f32⟩
  | .hbm, ⟨71, _⟩ => ⟨S50000x128, .f32⟩
  | .hbm, ⟨72, _⟩ => ⟨S600000x1, .i32⟩
  | .hbm, ⟨73, _⟩ => ⟨S50000x128, .f32⟩
  | .hbm, ⟨74, _⟩ => ⟨S128x128, .f32⟩
  | .hbm, ⟨75, _⟩ => ⟨S128x128, .f32⟩
  | .hbm, ⟨76, _⟩ => ⟨S50000x6, .f32⟩
  | .local _ .vmem, ⟨0, _⟩ => ⟨S10000x9, .f32⟩
  | .local _ .vmem, ⟨1, _⟩ => ⟨S10000x9, .f32⟩
  | .local _ .vmem, ⟨2, _⟩ => ⟨S9x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S10000x128, .f32⟩
  | .local _ .vmem, ⟨7, _⟩ => ⟨S10000x128, .f32⟩
  | .local _ .vmem, ⟨8, _⟩ => ⟨S12000x128, .f32⟩
  | .local _ .vmem, ⟨9, _⟩ => ⟨S12000x128, .f32⟩
  | .local _ .vmem, ⟨10, _⟩ => ⟨S12000x128, .f32⟩
  | .local _ .vmem, ⟨11, _⟩ => ⟨S12000x128, .f32⟩
  | .local _ .vmem, ⟨12, _⟩ => ⟨S12000x1, .f32⟩
  | .local _ .vmem, ⟨13, _⟩ => ⟨S12000x1, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S12000x128, .f32⟩
  | .local _ .vmem, ⟨21, _⟩ => ⟨S12000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128x128, .f32⟩
  | .local _ .vmem, ⟨27, _⟩ => ⟨S128x128, .f32⟩
  | .local _ .vmem, ⟨28, _⟩ => ⟨S128, .f32⟩
  | .local _ .vmem, ⟨29, _⟩ => ⟨S128x6, .f32⟩
  | .local _ .vmem, ⟨30, _⟩ => ⟨S6, .f32⟩
  | .local _ .vmem, ⟨31, _⟩ => ⟨S10000x6, .f32⟩
  | .local _ .vmem, ⟨32, _⟩ => ⟨S10000x6, .f32⟩
  | _, _ => ⟨S50000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v5 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_cst : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S12000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x6 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S6 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x6 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S10000x9_S10000x9_0_0 : ∀ a, (![0, 0] : Fin 2 → Nat) a + S10000x9.size a ≤ S10000x9.size a
  h_S10000x9 : 0 < S10000x9.numel
  inb_S9x128_S9x128_0_0 : ∀ a, (![0, 0] : Fin 2 → Nat) a + S9x128.size a ≤ S9x128.size a
  h_S9x128 : 0 < S9x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  slices_S257x128_S128x128_0_0 : S257x128.Slices ![0, 0] S128x128
  slices_S257x128_S128x128_128_0 : S257x128.Slices ![128, 0] S128x128
  slices_S257x128_S1x128_256_0 : S257x128.Slices ![256, 0] S1x128
  inb_S12000x128_S12000x128_0_0 : ∀ a, (![0, 0] : Fin 2 → Nat) a + S12000x128.size a ≤ S12000x128.size a
  h_S12000x128 : 0 < S12000x128.numel
  shapeCasts_S12000x128_S12000x128 : S12000x128.ShapeCasts S12000x128
  inb_S12000x1_S12000x1_0_0 : ∀ a, (![0, 0] : Fin 2 → Nat) a + S12000x1.size a ≤ S12000x1.size a
  h_S12000x1 : 0 < S12000x1.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S12000x1_S12000x128 : S12000x1.Broadcasts S12000x128
  broadcasts_S1x128_S12000x128 : S1x128.Broadcasts S12000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  shapeCasts_S10000x128_S10000x128 : S10000x128.ShapeCasts S10000x128
  inb_S128x6_S128x6_0_0 : ∀ a, (![0, 0] : Fin 2 → Nat) a + S128x6.size a ≤ S128x6.size a
  h_S128x6 : 0 < S128x6.numel
  inb_S6_S6_0 : ∀ a, (![0] : Fin 1 → Nat) a + S6.size a ≤ S6.size a
  h_S6 : 0 < S6.numel
  shapeCasts_S6_S1x6 : S6.ShapeCasts S1x6
  broadcasts_S1x6_S10000x6 : S1x6.Broadcasts S10000x6
  inb_S10000x6_S10000x6_0_0 : ∀ a, (![0, 0] : Fin 2 → Nat) a + S10000x6.size a ≤ S10000x6.size a
  h_S10000x6 : 0 < S10000x6.numel
  dot_S10000x9_S9x128_S10000x128_1_0_0_1_n_n_wf : DotDims.WF S10000x9 S9x128 S10000x128 [1] [0] [0] [1] [] []
  dot_S10000x128_S128x128_S10000x128_1_0_0_1_n_n_wf : DotDims.WF S10000x128 S128x128 S10000x128 [1] [0] [0] [1] [] []
  gather_S50000x128_S600000x1_S600000x128_1_0_n_n_0_1_1128_wf : GatherDims.WF S50000x128 S600000x1 S600000x128 [1] [0] [] [0] [] 1 ![1, 128]
  dot_S12000x128_S128x128_S12000x128_1_0_0_1_n_n_wf : DotDims.WF S12000x128 S128x128 S12000x128 [1] [0] [0] [1] [] []
  scatter_S50000x128_S600000x1_S600000x128_1_0_0_1_wf : ScatterDims.WF S50000x128 S600000x1 S600000x128 [1] [0] [0] 1
  dot_S10000x128_S128x6_S10000x6_1_0_0_1_n_n_wf : DotDims.WF S10000x128 S128x6 S10000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x9.size a ≤ S50000x9.size a
  hwx0_0 : ∀ i : grid0.Coords, EltTy.bits .f32 = 32 ∨ (Rect.block (s := S50000x9) S10000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .f32 = 32 ∨ (Rect.block (s := S9x128) S9x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x128.size a ≤ S600000x128.size a
  hwx1_0 : ∀ i : grid1.Coords, EltTy.bits .f32 = 32 ∨ (Rect.block (s := S600000x128) S12000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x128.size a ≤ S600000x128.size a
  hwx1_1 : ∀ i : grid1.Coords, EltTy.bits .f32 = 32 ∨ (Rect.block (s := S600000x128) S12000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12000x1.size a ≤ S600000x1.size a
  hwx1_2 : ∀ i : grid1.Coords, EltTy.bits .f32 = 32 ∨ (Rect.block (s := S600000x1) S12000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S12000x128.size a ≤ S600000x128.size a
  hwx1_9 : ∀ i : grid1.Coords, EltTy.bits .f32 = 32 ∨ (Rect.block (s := S600000x128) S12000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x6.size a ≤ S128x6.size a
  hwx2_5 : ∀ i : grid2.Coords, EltTy.bits .f32 = 32 ∨ (Rect.block (s := S128x6) S128x6.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S6.size a ≤ S6.size a
  hwx2_6 : ∀ i : grid2.Coords, EltTy.bits .f32 = 32 ∨ (Rect.block (s := S6) S6.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x6.size a ≤ S50000x6.size a
  hwx2_7 : ∀ i : grid2.Coords, EltTy.bits .f32 = 32 ∨ (Rect.block (s := S50000x6) S10000x6.size (cc2_transform_7 i) (hinb2_7 i)).WholeWords (EltTy.packing .f32)

variable [Facts₀]

def dot_S10000x9_S9x128_S10000x128_1_0_0_1_n_n : DotDims S10000x9 S9x128 S10000x128 where
  lhsContracting := [1]
  rhsContracting := [0]
  lhsNonContracting := [0]
  rhsNonContracting := [1]
  lhsBatch := []
  rhsBatch := []
  wf := dot_S10000x9_S9x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S12000x128_S128x128_S12000x128_1_0_0_1_n_n : DotDims S12000x128 S128x128 S12000x128 where
  lhsContracting := [1]
  rhsContracting := [0]
  lhsNonContracting := [0]
  rhsNonContracting := [1]
  lhsBatch := []
  rhsBatch := []
  wf := dot_S12000x128_S128x128_S12000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x6_S10000x6_1_0_0_1_n_n : DotDims S10000x128 S128x6 S10000x6 where
  lhsContracting := [1]
  rhsContracting := [0]
  lhsNonContracting := [0]
  rhsNonContracting := [1]
  lhsBatch := []
  rhsBatch := []
  wf := dot_S10000x128_S128x6_S10000x6_1_0_0_1_n_n_wf

abbrev win0_0 : Pipeline.Window sig grid0 :=
  Pipeline.Window.ofSpec (Memref.whole main_arg0) S10000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S12000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S12000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S12000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10) S12000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128x6.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S6.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S10000x6.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x9 : Shape := ⟨2, ![50000, 9]⟩
abbrev S2x600000 : Shape := ⟨2, ![2, 600000]⟩
abbrev S600000x1 : Shape := ⟨2, ![600000, 1]⟩
abbrev S9x128 : Shape := ⟨2, ![9, 128]⟩
abbrev S128 : Shape := ⟨1, ![128]⟩
abbrev S128x128 : Shape := ⟨2, ![128, 128]⟩
abbrev S257x128 : Shape := ⟨2, ![257, 128]⟩
abbrev S256x128 : Shape := ⟨2, ![256, 128]⟩
abbrev S128x6 : Shape := ⟨2, ![128, 6]⟩
abbrev S6 : Shape := ⟨1, ![6]⟩
abbrev S50000x128 : Shape := ⟨2, ![50000, 128]⟩
abbrev S1x128 : Shape := ⟨2, ![1, 128]⟩
abbrev S_ : Shape := ⟨0, ![]⟩
abbrev S1x600000 : Shape := ⟨2, ![1, 600000]⟩
abbrev S600000 : Shape := ⟨1, ![600000]⟩
abbrev S600000x128 : Shape := ⟨2, ![600000, 128]⟩
abbrev S600000x257 : Shape := ⟨2, ![600000, 257]⟩
abbrev S50000x256 : Shape := ⟨2, ![50000, 256]⟩
abbrev S50000x6 : Shape := ⟨2, ![50000, 6]⟩
abbrev S1x6 : Shape := ⟨2, ![1, 6]⟩

abbrev nBuf : Space → Nat
  | .hbm => 76
  | .vmem => 0
  | .smem => 0
  | _ => 0

abbrev bufTy : (tb : Table) → Fin (tcTables nBuf tb) → BufTy
  | .hbm, ⟨0, _⟩ => ⟨S50000x9, .f32⟩
  | .hbm, ⟨1, _⟩ => ⟨S2x600000, .i32⟩
  | .hbm, ⟨2, _⟩ => ⟨S600000x1, .f32⟩
  | .hbm, ⟨3, _⟩ => ⟨S9x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S257x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x6, .f32⟩
  | .hbm, ⟨14, _⟩ => ⟨S6, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S_, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S1x600000, .i32⟩
  | .hbm, ⟨27, _⟩ => ⟨S600000, .i32⟩
  | .hbm, ⟨28, _⟩ => ⟨S1x600000, .i32⟩
  | .hbm, ⟨29, _⟩ => ⟨S600000, .i32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S600000x257, .f32⟩
  | .hbm, ⟨49, _⟩ => ⟨S600000x128, .f32⟩
  | .hbm, ⟨50, _⟩ => ⟨S1x128, .f32⟩
  | .hbm, ⟨51, _⟩ => ⟨S600000x128, .f32⟩
  | .hbm, ⟨52, _⟩ => ⟨S600000x128, .f32⟩
  | .hbm, ⟨53, _⟩ => ⟨S_, .f32⟩
  | .hbm, ⟨54, _⟩ => ⟨S600000x128, .f32⟩
  | .hbm, ⟨55, _⟩ => ⟨S600000x128, .f32⟩
  | .hbm, ⟨56, _⟩ => ⟨S600000x128, .f32⟩
  | .hbm, ⟨57, _⟩ => ⟨S1x128, .f32⟩
  | .hbm, ⟨58, _⟩ => ⟨S600000x128, .f32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S50000x256, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x6, .f32⟩
  | .hbm, ⟨73, _⟩ => ⟨S1x6, .f32⟩
  | .hbm, ⟨74, _⟩ => ⟨S50000x6, .f32⟩
  | .hbm, ⟨75, _⟩ => ⟨S50000x6, .f32⟩
  | _, _ => ⟨S50000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_cst : Ref sig .tc := ⟨.hbm, 53, rfl⟩
abbrev main_call1_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call2_cst : Ref sig .tc := ⟨.hbm, 69, rfl⟩
abbrev main_call2_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x1_S600000x257_d1 : Shape.Concatenates [S600000x128, S600000x128, S600000x1] S600000x257 1
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  concatenates_S50000x128_S50000x128_S50000x256_d1 : Shape.Concatenates [S50000x128, S50000x128] S50000x256 1
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  dot_S50000x9_S9x128_S50000x128_1_0_0_1_n_n_wf : DotDims.WF S50000x9 S9x128 S50000x128 [1] [0] [0] [1] [] []
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  dot_S600000x257_S257x128_S600000x128_1_0_0_1_n_n_wf : DotDims.WF S600000x257 S257x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x6_S50000x6_1_0_0_1_n_n_wf : DotDims.WF S50000x128 S128x6 S50000x6 [1] [0] [0] [1] [] []

variable [Facts₀]

def dot_S50000x9_S9x128_S50000x128_1_0_0_1_n_n : DotDims S50000x9 S9x128 S50000x128 where
  lhsContracting := [1]
  rhsContracting := [0]
  lhsNonContracting := [0]
  rhsNonContracting := [1]
  lhsBatch := []
  rhsBatch := []
  wf := dot_S50000x9_S9x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x257_S257x128_S600000x128_1_0_0_1_n_n : DotDims S600000x257 S257x128 S600000x128 where
  lhsContracting := [1]
  rhsContracting := [0]
  lhsNonContracting := [0]
  rhsNonContracting := [1]
  lhsBatch := []
  rhsBatch := []
  wf := dot_S600000x257_S257x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x6_S50000x6_1_0_0_1_n_n : DotDims S50000x128 S128x6 S50000x6 where
  lhsContracting := [1]
  rhsContracting := [0]
  lhsNonContracting := [0]
  rhsNonContracting := [1]
  lhsBatch := []
  rhsBatch := []
  wf := dot_S50000x128_S128x6_S50000x6_1_0_0_1_n_n_wf

class Facts : Prop extends Facts₀ where

variable [Facts]
-- ==== Proof.Spec.lean ====
/-
  One round of message passing on a graph, as three two-layer perceptrons applied row by row.

  Every stage has the same second half: from a row's pre-activation `pre` the output entry `j` is
  Σ_k max (pre k) 0 · W₂ (k, j) + b₂ j. The stages differ in the pre-activation:
    * a node's encoding:  pre k = Σ_a x (n, a) · W₁ (a, k) + b₁ k;
    * an edge's message:  pre k = Σ_a r (e, a) · W₁ (a, k) + Σ_a c (e, a) · W₁ (128 + a, k) + w e · W₁ (256, k) + b₁ k,
      where r and c are the encodings of the edge's two endpoints and w its attribute: the product of the row
      (r | c | w) of length 257 with W₁, split at the two seams;
    * a node's update:    pre k = Σ_a h (n, a) · W₁ (a, k) + Σ_a s (n, a) · W₁ (128 + a, k) + b₁ k,
      where h is the node's encoding and s the sum of the messages arriving at it.
  Each function is stated for any number of rows, so that a block of rows of the array and the array itself are
  instances of one definition: row n of the result depends on row n of the row-indexed operands only.
  The split forms take the pieces of W₁ as separate matrices; the whole forms read them out of W₁.
-/
import Idealize.ShloMosaic.PureOps.Ideal
import Idealize.ShloMosaic.PureOps.ShapeOps
import Idealize.ShloMosaic.PureOps.Contract
import Idealize.ShloMosaic.Lib.ValueIdx

noncomputable section

open scoped BigOperators

namespace Cert.Spec

open Idealize.ShloMosaic Idealize.ShloMosaic.ValueIdx

/-- A matrix of extended reals with `r` rows and `c` columns. -/
abbrev Mat (r c : Nat) := FVec Ideal (⟨2, ![r, c]⟩ : Shape) .f32
/-- A vector of extended reals of length `n`. -/
abbrev Row (n : Nat) := FVec Ideal (⟨1, ![n]⟩ : Shape) .f32

/-- The second layer on one row: rectify the pre-activation, multiply by W₂, add the bias. -/
def out2 {H O : Nat} (pre : Fin H → EReal) (W2 : Mat H O) (b2 : Row O) (j : Fin O) : EReal :=
  (∑ k : Fin H, max (pre k) 0 * W2 (ix2 k j)) + b2 (ix1 j)

/-- A node's pre-activation: its 9 features times W₁, plus the bias. -/
def nodePre {N : Nat} (x : Mat N 9) (W1 : Mat 9 128) (b1 : Row 128) (n : Fin N) (k : Fin 128) : EReal :=
  (∑ a : Fin 9, x (ix2 n a) * W1 (ix2 a k)) + b1 (ix1 k)

/-- The node encoder on every row. -/
def nodeEnc {N : Nat} (x : Mat N 9) (W1 : Mat 9 128) (b1 : Row 128) (W2 : Mat 128 128) (b2 : Row 128) : Mat N 128 :=
  fun i => out2 (nodePre x W1 b1 (i 0)) W2 b2 (i 1)

/-- An edge's pre-activation, the three pieces of W₁ given apart. -/
def edgePre {N : Nat} (r c : Mat N 128) (w : Mat N 1) (Wa Wb : Mat 128 128) (Wc : Mat 1 128) (b1 : Row 128)
    (n : Fin N) (k : Fin 128) : EReal :=
  (∑ a : Fin 128, r (ix2 n a) * Wa (ix2 a k)) + (∑ a : Fin 128, c (ix2 n a) * Wb (ix2 a k))
    + w (ix2 n 0) * Wc (ix2 0 k) + b1 (ix1 k)

/-- The edge perceptron on every row, the three pieces of W₁ given apart. -/
def edgeMlp {N : Nat} (r c : Mat N 128) (w : Mat N 1) (Wa Wb : Mat 128 128) (Wc : Mat 1 128) (b1 : Row 128)
    (W2 : Mat 128 128) (b2 : Row 128) : Mat N 128 :=
  fun i => out2 (edgePre r c w Wa Wb Wc b1 (i 0)) W2 b2 (i 1)

/-- An edge's pre-activation, the pieces read out of the whole W₁ (257 rows). -/
def edgePreW {N : Nat} (r c : Mat N 128) (w : Mat N 1) (W1 : Mat 257 128) (b1 : Row 128)
    (n : Fin N) (k : Fin 128) : EReal :=
  (∑ a : Fin 128, r (ix2 n a) * W1 (ix2 (⟨a.val, by omega⟩ : Fin 257) k))
    + (∑ a : Fin 128, c (ix2 n a) * W1 (ix2 (⟨128 + a.val, by omega⟩ : Fin 257) k))
    + w (ix2 n 0) * W1 (ix2 (⟨256, by omega⟩ : Fin 257) k) + b1 (ix1 k)

/-- The edge perceptron on every row, over the whole W₁. -/
def edgeMlpW {N : Nat} (r c : Mat N 128) (w : Mat N 1) (W1 : Mat 257 128) (b1 : Row 128)
    (W2 : Mat 128 128) (b2 : Row 128) : Mat N 128 :=
  fun i => out2 (edgePreW r c w W1 b1 (i 0)) W2 b2 (i 1)

/-- A node's update pre-activation, the two pieces of W₁ given apart. -/
def updPre {N : Nat} (h s : Mat N 128) (Wa Wb : Mat 128 128) (b1 : Row 128) (n : Fin N) (k : Fin 128) : EReal :=
  (∑ a : Fin 128, h (ix2 n a) * Wa (ix2 a k)) + (∑ a : Fin 128, s (ix2 n a) * Wb (ix2 a k)) + b1 (ix1 k)

/-- The node update on every row, the two pieces of W₁ given apart. -/
def nodeUpd {N : Nat} (h s : Mat N 128) (Wa Wb : Mat 128 128) (b1 : Row 128) (W2 : Mat 128 6) (b2 : Row 6) : Mat N 6 :=
  fun i => out2 (updPre h s Wa Wb b1 (i 0)) W2 b2 (i 1)

/-- A node's update pre-activation, the pieces read out of the whole W₁ (256 rows). -/
def updPreW {N : Nat} (h s : Mat N 128) (W1 : Mat 256 128) (b1 : Row 128) (n : Fin N) (k : Fin 128) : EReal :=
  (∑ a : Fin 128, h (ix2 n a) * W1 (ix2 (⟨a.val, by omega⟩ : Fin 256) k))
    + (∑ a : Fin 128, s (ix2 n a) * W1 (ix2 (⟨128 + a.val, by omega⟩ : Fin 256) k)) + b1 (ix1 k)

/-- The node update on every row, over the whole W₁. -/
def nodeUpdW {N : Nat} (h s : Mat N 128) (W1 : Mat 256 128) (b1 : Row 128) (W2 : Mat 128 6) (b2 : Row 6) : Mat N 6 :=
  fun i => out2 (updPreW h s W1 b1 (i 0)) W2 b2 (i 1)

/-- The split edge perceptron at pieces that ARE the rows of W₁ is the whole one. -/
theorem edgeMlp_eq_W {N : Nat} (r c : Mat N 128) (w : Mat N 1) (Wa Wb : Mat 128 128) (Wc : Mat 1 128) (W1 : Mat 257 128)
    (b1 : Row 128) (W2 : Mat 128 128) (b2 : Row 128)
    (ha : ∀ (a k : Fin 128), Wa (ix2 a k) = W1 (ix2 (⟨a.val, by omega⟩ : Fin 257) k))
    (hb : ∀ (a k : Fin 128), Wb (ix2 a k) = W1 (ix2 (⟨128 + a.val, by omega⟩ : Fin 257) k))
    (hc : ∀ k : Fin 128, Wc (ix2 0 k) = W1 (ix2 (⟨256, by omega⟩ : Fin 257) k)) :
    edgeMlp r c w Wa Wb Wc b1 W2 b2 = edgeMlpW r c w W1 b1 W2 b2 := by
  funext i
  have hpre : edgePre r c w Wa Wb Wc b1 (i 0) = edgePreW r c w W1 b1 (i 0) := by
    funext k
    simp only [edgePre, edgePreW, ha, hb, hc]
  show out2 (edgePre r c w Wa Wb Wc b1 (i 0)) W2 b2 (i 1) = out2 (edgePreW r c w W1 b1 (i 0)) W2 b2 (i 1)
  rw [hpre]

/-- The split node update at pieces that ARE the rows of W₁ is the whole one. -/
theorem nodeUpd_eq_W {N : Nat} (h s : Mat N 128) (Wa Wb : Mat 128 128) (W1 : Mat 256 128)
    (b1 : Row 128) (W2 : Mat 128 6) (b2 : Row 6)
    (ha : ∀ (a k : Fin 128), Wa (ix2 a k) = W1 (ix2 (⟨a.val, by omega⟩ : Fin 256) k))
    (hb : ∀ (a k : Fin 128), Wb (ix2 a k) = W1 (ix2 (⟨128 + a.val, by omega⟩ : Fin 256) k)) :
    nodeUpd h s Wa Wb b1 W2 b2 = nodeUpdW h s W1 b1 W2 b2 := by
  funext i
  have hpre : updPre h s Wa Wb b1 (i 0) = updPreW h s W1 b1 (i 0) := by
    funext k
    simp only [updPre, updPreW, ha, hb]
  show out2 (updPre h s Wa Wb b1 (i 0)) W2 b2 (i 1) = out2 (updPreW h s W1 b1 (i 0)) W2 b2 (i 1)
  rw [hpre]

/-! ## The edges' endpoints, and the whole round -/

/-- The edge list: row 0 holds each edge's source node, row 1 its target node. -/
abbrev Edges := IVec (⟨2, ![2, 600000]⟩ : Shape) 32
/-- One node number per edge. -/
abbrev Ends := IVec (⟨1, ![600000]⟩ : Shape) 32
/-- The same, as a column: the form an indexed read or an indexed sum takes its positions in. -/
abbrev EndsCol := IVec (⟨2, ![600000, 1]⟩ : Shape) 32

/-- Row `r` of the edge list. -/
def endsOf (ei : Edges) (r : Fin 2) : Ends := fun i => ei (ix2 r (i 0))

/-- A negative node number counts from the end: 50000 is added to it. -/
def wrap (v : Ends) : Ends := fun i => Scalar.select (IntOp.cmpi .slt (v i) 0#32) (IntOp.addi (v i) 50000#32) (v i)

/-- A vector of node numbers as a column. -/
def col (v : Ends) : EndsCol := fun i => v (ix1 (i 0))

/-- ONE ROUND OF MESSAGE PASSING. Encode every node; read each edge's two endpoint encodings (`gd`: an indexed
    read of rows); run the edge perceptron on (source | target | attribute); sum the messages into their target
    nodes (`sd`: an indexed sum of rows into a zero array); update every node from its encoding and its sum. -/
def G (gd : GatherDims (⟨2, ![50000, 128]⟩ : Shape) (⟨2, ![600000, 1]⟩ : Shape) (⟨2, ![600000, 128]⟩ : Shape))
    (sd : ScatterDims (⟨2, ![50000, 128]⟩ : Shape) (⟨2, ![600000, 1]⟩ : Shape) (⟨2, ![600000, 128]⟩ : Shape))
    (x : Mat 50000 9) (ei : Edges) (ea : Mat 600000 1)
    (neW1 : Mat 9 128) (neb1 : Row 128) (neW2 : Mat 128 128) (neb2 : Row 128)
    (eeW1 : Mat 257 128) (eeb1 : Row 128) (eeW2 : Mat 128 128) (eeb2 : Row 128)
    (nuW1 : Mat 256 128) (nub1 : Row 128) (nuW2 : Mat 128 6) (nub2 : Row 6) : Mat 50000 6 :=
  nodeUpdW (nodeEnc x neW1 neb1 neW2 neb2)
    (Host.scatterAdd (F := Ideal) sd (fun _ => (0 : EReal)) (col (endsOf ei 1))
      (edgeMlpW (Host.gather gd (nodeEnc x neW1 neb1 neW2 neb2) (col (wrap (endsOf ei 0))))
        (Host.gather gd (nodeEnc x neW1 neb1 neW2 neb2) (col (wrap (endsOf ei 1)))) ea eeW1 eeb1 eeW2 eeb2))
    nuW1 nub1 nuW2 nub2

end Cert.Spec

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.Node.lean ====
import proofs.«426707_j8151847928380_3_alg».proof.Proof.Gen.KernelIdeal.Frame
import proofs.«426707_j8151847928380_3_alg».proof.Proof.Spec
import proofs.«426707_j8151847928380_3_alg».proof.Proof.LibDot
import Idealize.ShloMosaic.Lib.ValueLayout

set_option maxRecDepth 16384

noncomputable section

open scoped BigOperators

namespace Cert.KValue

open Cert.KernelIdeal Cert.KernelIdeal.Gen Idealize.ShloMosaic Idealize.ShloMosaic.TcCoe Idealize.SL.Sem
open Idealize.ShloMosaic.Pipeline (Dat)
open Idealize.ShloMosaic.ValueIdx

/-! ## The body's arithmetic on a block of 10000 rows -/

/-- A block product accumulated into the zero block, read at (n, j): Σ_κ l (n, κ) · r (κ, j). -/
theorem node_prod_zero_apply {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ .f32) (r : FVec Ideal ⟨2, ![K, M]⟩ .f32) (n : Fin N) (j : Fin M) :
    matmul d none l r (constant (F := Ideal) ⟨2, ![N, M]⟩ .f32 0x00000000#32) (ix2 n j)
      = ∑ κ : Fin K, l (ix2 n κ) * r (ix2 κ j) := by
  refine (Cert.LibDot.matmul_rows_apply d hlc hrc hln hrn hlb hrb none l r _ n j).trans ?_
  rw [constant_apply, Ideal.ofBits_zero_f32, zero_add]

/-- A vector of length 128 laid as one row and repeated down 10000 rows reads, at (p, q), its entry q. -/
theorem node_bias_apply (b : FVec Ideal S128 .f32) (p : Fin 10000) (q : Fin 128) :
    broadcastTo S10000x128 (shapeCast S1x128 b shapeCasts_S128_S1x128) broadcasts_S1x128_S10000x128 (ix2 p q)
      = b (ix1 q) :=
  (broadcastTo_1b_ab_apply _ broadcasts_S1x128_S10000x128 p q).trans
    (shapeCast_a_1a_apply b shapeCasts_S128_S1x128 0 q)

/-- The rectified first layer at row p, hidden unit k: the row's pre-activation against zero. -/
theorem node_hidden_apply (x : FVec Ideal S10000x9 .f32) (W1 : FVec Ideal S9x128 .f32) (b1 : FVec Ideal S128 .f32)
    (p : Fin 10000) (k : Fin 128) :
    maximumf (addf (matmul dot_S10000x9_S9x128_S10000x128_1_0_0_1_n_n none x W1 (constant (F := Ideal) S10000x128 .f32 0x00000000#32))
        (broadcastTo S10000x128 (shapeCast S1x128 b1 shapeCasts_S128_S1x128) broadcasts_S1x128_S10000x128))
      (broadcast S10000x128 (Scalar.ofBits (F := Ideal) .f32 0x00000000#32)) (ix2 p k)
      = max (Cert.Spec.nodePre (N := 10000) x W1 b1 p k) 0 := by
  rw [maximumf_apply, addf_apply, broadcast_apply, node_bias_apply]
  rw [node_prod_zero_apply (N := 10000) (K := 9) (M := 128) dot_S10000x9_S9x128_S10000x128_1_0_0_1_n_n rfl rfl rfl rfl rfl rfl x W1 p k]
  unfold Cert.Spec.nodePre
  exact congrArg (max _) Ideal.ofBits_zero_f32

/-- THE BODY ON A BLOCK: what the body stores is the node encoder of the block's 10000 rows. -/
theorem node_pay_eq (x : Vec Ideal S10000x9 .f32) (W1 : Vec Ideal S9x128 .f32) (b1 : Vec Ideal S128 .f32)
    (W2 : Vec Ideal S128x128 .f32) (b2 : Vec Ideal S128 .f32) :
    k0_pay1 (F := Ideal) x W1 b1 W2 b2 = Cert.Spec.nodeEnc (N := 10000) x W1 b1 W2 b2 := by
  funext j
  obtain ⟨p, q, rfl⟩ : ∃ (p : Fin 10000) (q : Fin 128), j = ix2 p q := ⟨j 0, j 1, eq_ix2 j⟩
  show addf (matmul dot_S10000x128_S128x128_S10000x128_1_0_0_1_n_n none
        (maximumf (addf (matmul dot_S10000x9_S9x128_S10000x128_1_0_0_1_n_n none x W1 (constant (F := Ideal) S10000x128 .f32 0x00000000#32))
            (broadcastTo S10000x128 (shapeCast S1x128 b1 shapeCasts_S128_S1x128) broadcasts_S1x128_S10000x128))
          (broadcast S10000x128 (Scalar.ofBits (F := Ideal) .f32 0x00000000#32)))
        W2 (constant (F := Ideal) S10000x128 .f32 0x00000000#32))
      (broadcastTo S10000x128 (shapeCast S1x128 b2 shapeCasts_S128_S1x128) broadcasts_S1x128_S10000x128) (ix2 p q)
    = Cert.Spec.out2 (Cert.Spec.nodePre (N := 10000) x W1 b1 p) W2 b2 q
  rw [addf_apply, node_bias_apply]
  rw [node_prod_zero_apply (N := 10000) (K := 128) (M := 128) dot_S10000x128_S128x128_S10000x128_1_0_0_1_n_n rfl rfl rfl rfl rfl rfl _ W2 p q]
  unfold Cert.Spec.out2
  exact congrArg (· + b2 (ix1 q)) (Finset.sum_congr rfl fun k _ => by rw [node_hidden_apply])

/-! ## From blocks to the array -/

/-- The encoder is row-wise: a row of one array and a row of another with the same nine features, under the same
    weights, encode alike. -/
theorem nodeEnc_row {N N' : Nat} (x : Cert.Spec.Mat N 9) (x' : Cert.Spec.Mat N' 9) (W1 : Cert.Spec.Mat 9 128)
    (b1 : Cert.Spec.Row 128) (W2 : Cert.Spec.Mat 128 128) (b2 : Cert.Spec.Row 128)
    (i : (⟨2, ![N, 128]⟩ : Shape).Idx) (i' : (⟨2, ![N', 128]⟩ : Shape).Idx)
    (hx : ∀ a : Fin 9, x (ix2 (i 0) a) = x' (ix2 (i' 0) a)) (hq : (i 1).val = (i' 1).val) :
    Cert.Spec.nodeEnc x W1 b1 W2 b2 i = Cert.Spec.nodeEnc x' W1 b1 W2 b2 i' := by
  have hpre : Cert.Spec.nodePre x W1 b1 (i 0) = Cert.Spec.nodePre x' W1 b1 (i' 0) := by
    funext k
    unfold Cert.Spec.nodePre
    simp only [hx]
  have hq' : (i 1 : Fin 128) = i' 1 := Fin.ext hq
  show Cert.Spec.out2 (Cert.Spec.nodePre x W1 b1 (i 0)) W2 b2 (i 1)
    = Cert.Spec.out2 (Cert.Spec.nodePre x' W1 b1 (i' 0)) W2 b2 (i' 1)
  rw [hpre, hq']

theorem node_origin2 : (![0, 0] : Fin 2 → Nat) = fun _ => 0 := funext fun a => by fin_cases a <;> rfl
theorem node_origin1 : (![0] : Fin 1 → Nat) = fun _ => 0 := funext fun a => by fin_cases a <;> rfl

/-- The printed index maps, decided over the grid: the feature window moves down the rows with the output window,
    every weight window stays at block 0, and the output's block index is the point's number. -/
theorem node_idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 4 :=
  (by decide +kernel : ∀ t : Fin grid0.N, _)

/-- Every block of rows is SOME point's. -/
theorem node_idx_onto : ∀ q0 : Fin 5, ∃ t : Fin cfg0.N, win0_5.index t = ![q0.val, 0] :=
  (by decide +kernel : ∀ q0 : Fin 5, ∃ t : Fin grid0.N, win0_5.index t = ![q0.val, 0])

section Blocks

variable (V : (c : Dev nD) → (b : Ref sig .tc) → Buf (Elt Ideal) ((c : Thread nD τ).loc b))

/-- The first layer's weight block at any point is the whole matrix. -/
theorem node_blk_W1 (c : Dev nD) (t : Fin cfg0.N) : (iblk0 (F := Ideal) V c 1 t : Vec Ideal S9x128 .f32) = V c main_arg3 := by
  obtain ⟨-, -, e0, e1, -⟩ := node_idx_facts t
  funext y
  show V c main_arg3 (((cfg0.win 1).blk t).view.emb y) = V c main_arg3 y
  refine congrArg _ (funext fun a => Fin.ext ?_)
  match a with
  | ⟨0, _⟩ => show win0_1.index t (0 : Fin 2) * 9 + 1 * (y 0).val = (y 0).val; omega
  | ⟨1, _⟩ => show win0_1.index t (1 : Fin 2) * 128 + 1 * (y 1).val = (y 1).val; omega

/-- The first layer's bias block at any point is the whole vector. -/
theorem node_blk_b1 (c : Dev nD) (t : Fin cfg0.N) : (iblk0 (F := Ideal) V c 2 t : Vec Ideal S128 .f32) = V c main_arg4 := by
  obtain ⟨-, -, -, -, e0, -⟩ := node_idx_facts t
  funext y
  show V c main_arg4 (((cfg0.win 2).blk t).view.emb y) = V c main_arg4 y
  refine congrArg _ (funext fun a => Fin.ext ?_)
  match a with
  | ⟨0, _⟩ => show win0_2.index t (0 : Fin 1) * 128 + 1 * (y 0).val = (y 0).val; omega

/-- The second layer's weight block at any point is the whole matrix. -/
theorem node_blk_W2 (c : Dev nD) (t : Fin cfg0.N) : (iblk0 (F := Ideal) V c 3 t : Vec Ideal S128x128 .f32) = V c main_arg5 := by
  obtain ⟨-, -, -, -, -, e0, e1, -⟩ := node_idx_facts t
  funext y
  show V c main_arg5 (((cfg0.win 3).blk t).view.emb y) = V c main_arg5 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second layer's bias block at any point is the whole vector. -/
theorem node_blk_b2 (c : Dev nD) (t : Fin cfg0.N) : (iblk0 (F := Ideal) V c 4 t : Vec Ideal S128 .f32) = V c main_arg6 := by
  obtain ⟨-, -, -, -, -, -, -, e0, -⟩ := node_idx_facts t
  funext y
  show V c main_arg6 (((cfg0.win 4).blk t).view.emb y) = V c main_arg6 y
  refine congrArg _ (funext fun a => Fin.ext ?_)
  match a with
  | ⟨0, _⟩ => show win0_4.index t (0 : Fin 1) * 128 + 1 * (y 0).val = (y 0).val; omega

/-- Row p of the feature block at point t is the array's row (t's block index) · 10000 + p: the row the output block's
    row p sits at. -/
theorem node_blk_x (c : Dev nD) (t : Fin cfg0.N) (y : S10000x128.Idx) (a : Fin 9) :
    (iblk0 (F := Ideal) V c 0 t : Vec Ideal S10000x9 .f32) (ix2 (y 0) a)
      = V c main_arg0 (ix2 ((((cfg0.win 5).blk t).view.emb y : S50000x128.Idx) 0) a) := by
  obtain ⟨e0, e1, -⟩ := node_idx_facts t
  show V c main_arg0 (((cfg0.win 0).blk t).view.emb (ix2 (y 0) a)) = _
  refine congrArg _ (funext fun b => Fin.ext ?_)
  match b with
  | ⟨0, _⟩ => show win0_0.index t (0 : Fin 2) * 10000 + 1 * (y 0).val = win0_5.index t (0 : Fin 2) * 10000 + 1 * (y 0).val; omega
  | ⟨1, _⟩ => show win0_0.index t (1 : Fin 2) * 9 + 1 * a.val = a.val; omega

/-- WHAT POINT t WRITES BACK is block t of the node encoder of the whole arrays as the region finds them. -/
theorem node_flushed_eq (c : Dev nD) (t : Fin cfg0.N) :
    (dat0 (F := Ideal) V c).flushed 5 t = ((cfg0.win 5).blk t).view.read (Elt Ideal)
      (Cert.Spec.nodeEnc (N := 50000) (V c main_arg0) (V c main_arg3) (V c main_arg4) (V c main_arg5) (V c main_arg6)) := by
  show (cfg0.win 5).cut (grid0.coords t) ((dat0 V c).after 5 t) = _
  rw [after0_5]
  unfold out0_5
  rw [View.canon_unit_zero node_origin2]
  simp only [View.ld_unit_zero (S := S10000x9) node_origin2, View.ld_unit_zero (S := S9x128) node_origin2, View.ld_unit_zero (S := S128x128) node_origin2,
    View.ld_unit_zero (S := S128) node_origin1]
  rw [node_pay_eq, node_blk_W1, node_blk_b1, node_blk_W2, node_blk_b2]
  obtain ⟨-, -, -, -, -, -, -, -, e1, -⟩ := node_idx_facts t
  funext y
  show Cert.Spec.nodeEnc (N := 10000) (iblk0 V c 0 t) (V c main_arg3) (V c main_arg4) (V c main_arg5) (V c main_arg6) y
    = Cert.Spec.nodeEnc (N := 50000) (V c main_arg0) (V c main_arg3) (V c main_arg4) (V c main_arg5) (V c main_arg6)
        (((cfg0.win 5).blk t).view.emb y)
  refine nodeEnc_row _ _ _ _ _ _ y _ (fun a => node_blk_x V c t y a) ?_
  show (y 1).val = win0_5.index t (1 : Fin 2) * 128 + 1 * (y 1).val
  omega

/-- An index of the array is in point t's block iff each coordinate is in the block's range on its axis. -/
theorem node_mem_blk (t : Fin cfg0.N) (i : S50000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v0).slice (win0_5.rect t)).set ↔ _
  rw [View.set_slice_whole, Rect.mem_set_unit]
  exact Iff.rfl

/-- THE COVER: row r of the array lies in the block of the point whose block index is r / 10000. -/
theorem node_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := node_idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [node_mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

end Blocks

variable (V : (c : Dev nD) → (b : Ref sig .tc) → Buf (Elt Ideal) ((c : Thread nD τ).loc b))

/-- The node encoder's array after its region: the encoder of the whole argument arrays, row by row. -/
theorem node_arr (c : Dev nD) :
    (dat0 (F := Ideal) V c).arrAt 5 cfg0.N
      = Cert.Spec.nodeEnc (N := 50000) (V c main_arg0) (V c main_arg3) (V c main_arg4) (V c main_arg5) (V c main_arg6) := by
  exact (dat0 (F := Ideal) V c).arrAt_eq_of_cover 5 _ (fun t _ => node_flushed_eq V c t) node_cover

end Cert.KValue

end
-- ==== Proof.Edge.lean ====
import proofs.«426707_j8151847928380_3_alg».proof.Proof.Gen.KernelIdeal.Frame
import proofs.«426707_j8151847928380_3_alg».proof.Proof.Spec
import proofs.«426707_j8151847928380_3_alg».proof.Proof.LibDot
import Idealize.ShloMosaic.Lib.ValueLayout
import Idealize.ShloMosaic.Lib.Pipeline.Value

set_option maxRecDepth 16384

noncomputable section

open scoped BigOperators

namespace Cert.KValue.Edge

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The block's arithmetic, read at one entry -/

/-- A column [a, 1] repeated along the second axis reads, at (p, c), the column's entry p. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product of a 12000 × 128 block by a 128 × 128 matrix, accumulated into zero, at (p, q): Σ_κ l (p, κ) · r (κ, q). -/
theorem matmul_zero_apply (l : FVec Ideal S12000x128 .f32) (r : FVec Ideal S128x128 .f32) (p : Fin 12000) (q : Fin 128) :
    matmul dot_S12000x128_S128x128_S12000x128_1_0_0_1_n_n none l r (constant (F := Ideal) S12000x128 .f32 0x00000000#32) (ix2 p q)
      = ∑ κ : Fin 128, l (ix2 p κ) * r (ix2 κ q) := by
  refine (Cert.LibDot.matmul_rows_apply dot_S12000x128_S128x128_S12000x128_1_0_0_1_n_n rfl rfl rfl rfl rfl rfl none l r _ p q).trans ?_
  rw [constant_apply, Ideal.ofBits_zero_f32, zero_add]

/-- The rectifier's zero is the extended real 0. -/
theorem scalar_zero : (Scalar.ofBits .f32 0x00000000#32 : Ideal .f32) = 0 := Ideal.ofBits_zero_f32

/-- ON A BLOCK OF 12000 ROWS the body's arithmetic is the edge perceptron of the block's operands. -/
theorem pay_eq (x0 x1 : FVec Ideal S12000x128 .f32) (x2 : FVec Ideal S12000x1 .f32) (x3 x4 : FVec Ideal S128x128 .f32)
    (x5 : FVec Ideal S1x128 .f32) (x6 : FVec Ideal S128 .f32) (x7 : FVec Ideal S128x128 .f32) (x8 : FVec Ideal S128 .f32) :
    k1_pay1 (F := Ideal) x0 x1 x2 x3 x4 x5 x6 x7 x8 = Cert.Spec.edgeMlp (N := 12000) x0 x1 x2 x3 x4 x5 x6 x7 x8 := by
  funext j
  obtain ⟨p, q, rfl⟩ : ∃ (p : Fin 12000) (q : Fin 128), j = ix2 p q := ⟨j 0, j 1, eq_ix2 j⟩
  unfold k1_pay1
  simp only [shapeCast_self, addf_apply, matmul_zero_apply, mulf_apply, maximumf_apply, broadcast_apply,
    broadcastTo_1b_ab_apply, broadcastTo_a1_ab_apply, shapeCast_a_1a_apply, scalar_zero]
  rfl

/-! ## The blocks of the row-indexed arrays, and the whole arrays of the weights -/

theorem hz : (![0, 0] : Fin 2 → Nat) = fun _ => 0 := funext fun a => by fin_cases a <;> rfl
theorem hz1 : (![0] : Fin 1 → Nat) = fun _ => 0 := funext fun a => by fin_cases a <;> rfl

/-- The windows' index maps over the grid: every row-blocked window is at block t along the rows and block 0 along the
    columns; every weight window is at block 0 on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- Row p of block t is row 12000 t + p of the array. -/
theorem row_lt (t : Fin cfg1.N) (p : Fin 12000) : t.val * 12000 + p.val < 600000 := by
  have ht : t.val < grid1.N := t.isLt
  rw [N_1] at ht
  have := p.isLt
  omega

/-- The block of the source encodings at point t, entry (p, a): the array's row 12000 t + p. -/
theorem blk0_apply (c : Dev nD) (t : Fin cfg1.N) (p : Fin 12000) (a : Fin 128) :
    (iblk1 (F := Ideal) V c 0 t : S12000x128.Idx → EReal) (ix2 p a)
      = (V c main_v5 : S600000x128.Idx → EReal) (ix2 ⟨t.val * 12000 + p.val, row_lt t p⟩ a) := by
  obtain ⟨e00, e01, e10, e11, e20, e21, e30, e31, e40, e41, e50, e51, e60, e70, e71, e80, e90, e91⟩ := idx_facts t
  show (V c main_v5 : S600000x128.Idx → EReal) (((cfg1.win 0).blk t).view.emb (ix2 p a)) = _
  refine congrArg (V c main_v5 : S600000x128.Idx → EReal) (funext fun d => Fin.ext ?_)
  match d with
  | ⟨0, _⟩ => show win1_0.index t (0 : Fin 2) * 12000 + 1 * p.val = t.val * 12000 + p.val; rw [e00]; omega
  | ⟨1, _⟩ => show win1_0.index t (1 : Fin 2) * 128 + 1 * a.val = a.val; rw [e01]; omega

/-- The block of the target encodings at point t, entry (p, a): the array's row 12000 t + p. -/
theorem blk1_apply (c : Dev nD) (t : Fin cfg1.N) (p : Fin 12000) (a : Fin 128) :
    (iblk1 (F := Ideal) V c 1 t : S12000x128.Idx → EReal) (ix2 p a)
      = (V c main_v6 : S600000x128.Idx → EReal) (ix2 ⟨t.val * 12000 + p.val, row_lt t p⟩ a) := by
  obtain ⟨e00, e01, e10, e11, e20, e21, e30, e31, e40, e41, e50, e51, e60, e70, e71, e80, e90, e91⟩ := idx_facts t
  show (V c main_v6 : S600000x128.Idx → EReal) (((cfg1.win 1).blk t).view.emb (ix2 p a)) = _
  refine congrArg (V c main_v6 : S600000x128.Idx → EReal) (funext fun d => Fin.ext ?_)
  match d with
  | ⟨0, _⟩ => show win1_1.index t (0 : Fin 2) * 12000 + 1 * p.val = t.val * 12000 + p.val; rw [e10]; omega
  | ⟨1, _⟩ => show win1_1.index t (1 : Fin 2) * 128 + 1 * a.val = a.val; rw [e11]; omega

/-- The block of the edge attributes at point t, entry (p, 0): the array's row 12000 t + p. -/
theorem blk2_apply (c : Dev nD) (t : Fin cfg1.N) (p : Fin 12000) (a : Fin 1) :
    (iblk1 (F := Ideal) V c 2 t : S12000x1.Idx → EReal) (ix2 p a)
      = (V c main_arg2 : S600000x1.Idx → EReal) (ix2 ⟨t.val * 12000 + p.val, row_lt t p⟩ a) := by
  obtain ⟨e00, e01, e10, e11, e20, e21, e30, e31, e40, e41, e50, e51, e60, e70, e71, e80, e90, e91⟩ := idx_facts t
  show (V c main_arg2 : S600000x1.Idx → EReal) (((cfg1.win 2).blk t).view.emb (ix2 p a)) = _
  refine congrArg (V c main_arg2 : S600000x1.Idx → EReal) (funext fun d => Fin.ext ?_)
  match d with
  | ⟨0, _⟩ => show win1_2.index t (0 : Fin 2) * 12000 + 1 * p.val = t.val * 12000 + p.val; rw [e20]; omega
  | ⟨1, _⟩ => show win1_2.index t (1 : Fin 2) * 1 + 1 * a.val = a.val; rw [e21]; omega

/-- The first-layer weights on the source encodings are staged whole. -/
theorem blk3_eq (c : Dev nD) (t : Fin cfg1.N) :
    (iblk1 (F := Ideal) V c 3 t : S128x128.Idx → EReal) = (V c main_v7 : S128x128.Idx → EReal) := by
  obtain ⟨e00, e01, e10, e11, e20, e21, e30, e31, e40, e41, e50, e51, e60, e70, e71, e80, e90, e91⟩ := idx_facts t
  funext y
  show (V c main_v7 : S128x128.Idx → EReal) (((cfg1.win 3).blk t).view.emb y) = _
  refine congrArg (V c main_v7 : S128x128.Idx → EReal) (funext fun d => Fin.ext ?_)
  match d with
  | ⟨0, _⟩ => show win1_3.index t (0 : Fin 2) * 128 + 1 * (y 0).val = (y 0).val; rw [e30]; omega
  | ⟨1, _⟩ => show win1_3.index t (1 : Fin 2) * 128 + 1 * (y 1).val = (y 1).val; rw [e31]; omega

/-- The first-layer weights on the target encodings are staged whole. -/
theorem blk4_eq (c : Dev nD) (t : Fin cfg1.N) :
    (iblk1 (F := Ideal) V c 4 t : S128x128.Idx → EReal) = (V c main_v8 : S128x128.Idx → EReal) := by
  obtain ⟨e00, e01, e10, e11, e20, e21, e30, e31, e40, e41, e50, e51, e60, e70, e71, e80, e90, e91⟩ := idx_facts t
  funext y
  show (V c main_v8 : S128x128.Idx → EReal) (((cfg1.win 4).blk t).view.emb y) = _
  refine congrArg (V c main_v8 : S128x128.Idx → EReal) (funext fun d => Fin.ext ?_)
  match d with
  | ⟨0, _⟩ => show win1_4.index t (0 : Fin 2) * 128 + 1 * (y 0).val = (y 0).val; rw [e40]; omega
  | ⟨1, _⟩ => show win1_4.index t (1 : Fin 2) * 128 + 1 * (y 1).val = (y 1).val; rw [e41]; omega

/-- The first-layer weight row on the attribute is staged whole. -/
theorem blk5_eq (c : Dev nD) (t : Fin cfg1.N) :
    (iblk1 (F := Ideal) V c 5 t : S1x128.Idx → EReal) = (V c main_v9 : S1x128.Idx → EReal) := by
  obtain ⟨e00, e01, e10, e11, e20, e21, e30, e31, e40, e41, e50, e51, e60, e70, e71, e80, e90, e91⟩ := idx_facts t
  funext y
  show (V c main_v9 : S1x128.Idx → EReal) (((cfg1.win 5).blk t).view.emb y) = _
  refine congrArg (V c main_v9 : S1x128.Idx → EReal) (funext fun d => Fin.ext ?_)
  match d with
  | ⟨0, _⟩ => show win1_5.index t (0 : Fin 2) * 1 + 1 * (y 0).val = (y 0).val; rw [e50]; omega
  | ⟨1, _⟩ => show win1_5.index t (1 : Fin 2) * 128 + 1 * (y 1).val = (y 1).val; rw [e51]; omega

/-- The first-layer bias is staged whole. -/
theorem blk6_eq (c : Dev nD) (t : Fin cfg1.N) :
    (iblk1 (F := Ideal) V c 6 t : S128.Idx → EReal) = (V c main_arg8 : S128.Idx → EReal) := by
  obtain ⟨e00, e01, e10, e11, e20, e21, e30, e31, e40, e41, e50, e51, e60, e70, e71, e80, e90, e91⟩ := idx_facts t
  funext y
  show (V c main_arg8 : S128.Idx → EReal) (((cfg1.win 6).blk t).view.emb y) = _
  refine congrArg (V c main_arg8 : S128.Idx → EReal) (funext fun d => Fin.ext ?_)
  match d with
  | ⟨0, _⟩ => show win1_6.index t (0 : Fin 1) * 128 + 1 * (y 0).val = (y 0).val; rw [e60]; omega

/-- The second-layer weights are staged whole. -/
theorem blk7_eq (c : Dev nD) (t : Fin cfg1.N) :
    (iblk1 (F := Ideal) V c 7 t : S128x128.Idx → EReal) = (V c main_arg9 : S128x128.Idx → EReal) := by
  obtain ⟨e00, e01, e10, e11, e20, e21, e30, e31, e40, e41, e50, e51, e60, e70, e71, e80, e90, e91⟩ := idx_facts t
  funext y
  show (V c main_arg9 : S128x128.Idx → EReal) (((cfg1.win 7).blk t).view.emb y) = _
  refine congrArg (V c main_arg9 : S128x128.Idx → EReal) (funext fun d => Fin.ext ?_)
  match d with
  | ⟨0, _⟩ => show win1_7.index t (0 : Fin 2) * 128 + 1 * (y 0).val = (y 0).val; rw [e70]; omega
  | ⟨1, _⟩ => show win1_7.index t (1 : Fin 2) * 128 + 1 * (y 1).val = (y 1).val; rw [e71]; omega

/-- The second-layer bias is staged whole. -/
theorem blk8_eq (c : Dev nD) (t : Fin cfg1.N) :
    (iblk1 (F := Ideal) V c 8 t : S128.Idx → EReal) = (V c main_arg10 : S128.Idx → EReal) := by
  obtain ⟨e00, e01, e10, e11, e20, e21, e30, e31, e40, e41, e50, e51, e60, e70, e71, e80, e90, e91⟩ := idx_facts t
  funext y
  show (V c main_arg10 : S128.Idx → EReal) (((cfg1.win 8).blk t).view.emb y) = _
  refine congrArg (V c main_arg10 : S128.Idx → EReal) (funext fun d => Fin.ext ?_)
  match d with
  | ⟨0, _⟩ => show win1_8.index t (0 : Fin 1) * 128 + 1 * (y 0).val = (y 0).val; rw [e80]; omega

/-- Entry (p, q) of the output's block at point t sits in the array at row 12000 t + p, column q. -/
theorem out_emb (t : Fin cfg1.N) (p : Fin 12000) (q : Fin 128) :
    (((cfg1.win 9).blk t).view.emb (ix2 p q) : S600000x128.Idx) = ix2 ⟨t.val * 12000 + p.val, row_lt t p⟩ q := by
  obtain ⟨e00, e01, e10, e11, e20, e21, e30, e31, e40, e41, e50, e51, e60, e70, e71, e80, e90, e91⟩ := idx_facts t
  refine funext fun d => Fin.ext ?_
  match d with
  | ⟨0, _⟩ => show win1_9.index t (0 : Fin 2) * 12000 + 1 * p.val = t.val * 12000 + p.val; rw [e90]; omega
  | ⟨1, _⟩ => show win1_9.index t (1 : Fin 2) * 128 + 1 * q.val = q.val; rw [e91]; omega

/-! ## The output's blocks cover its array -/

/-- An index of the output array is in point t's block iff each coordinate is in the block's range on its axis. -/
theorem mem_blk (t : Fin cfg1.N) (i : S600000x128.Idx) :
    i ∈ ((cfg1.win 9).blk t).view.set ↔ ∀ a : Fin 2, win1_9.index t a * S12000x128.size a ≤ (i a).val ∧ (i a).val < win1_9.index t a * S12000x128.size a + S12000x128.size a := by
  show i ∈ ((View.whole main_v10).slice (win1_9.rect t)).set ↔ _
  rw [View.set_slice_whole, Rect.mem_set_unit]
  exact Iff.rfl

/-- Row r of the output array is written by point r / 12000. -/
theorem cover (i : S600000x128.Idx) :
    ∃ t : Fin cfg1.N, (cfg1.win 9).flush t = true ∧ i ∈ ((cfg1.win 9).blk t).view.set := by
  have hi0 : (i 0).val < 600000 := (i 0).isLt
  have hi1 : (i 1).val < 128 := (i 1).isLt
  have hN : grid1.N = 50 := N_1
  have ht : (i 0).val / 12000 < grid1.N := by rw [hN]; omega
  obtain ⟨e00, e01, e10, e11, e20, e21, e30, e31, e40, e41, e50, e51, e60, e70, e71, e80, e90, e91⟩ := idx_facts ⟨(i 0).val / 12000, ht⟩
  refine ⟨⟨(i 0).val / 12000, ht⟩, flush1_9 _, ?_⟩
  rw [mem_blk]
  intro a
  match a with
  | ⟨0, _⟩ =>
    show win1_9.index ⟨(i 0).val / 12000, ht⟩ (0 : Fin 2) * 12000 ≤ (i 0).val ∧ (i 0).val < win1_9.index ⟨(i 0).val / 12000, ht⟩ (0 : Fin 2) * 12000 + 12000
    rw [e90]
    show (i 0).val / 12000 * 12000 ≤ (i 0).val ∧ (i 0).val < (i 0).val / 12000 * 12000 + 12000
    omega
  | ⟨1, _⟩ =>
    show win1_9.index ⟨(i 0).val / 12000, ht⟩ (1 : Fin 2) * 128 ≤ (i 1).val ∧ (i 1).val < win1_9.index ⟨(i 0).val / 12000, ht⟩ (1 : Fin 2) * 128 + 128
    rw [e91]
    omega

/-! ## What a point writes back, and the array after the region -/

/-- The edge perceptron is row-wise: two triples of row-indexed operands that agree on a row give the same output row. -/
theorem edgeMlp_row {N M : Nat} (r c : Cert.Spec.Mat N 128) (w : Cert.Spec.Mat N 1) (r' c' : Cert.Spec.Mat M 128) (w' : Cert.Spec.Mat M 1)
    (Wa Wb : Cert.Spec.Mat 128 128) (Wc : Cert.Spec.Mat 1 128) (b1 : Cert.Spec.Row 128) (W2 : Cert.Spec.Mat 128 128) (b2 : Cert.Spec.Row 128)
    (n : Fin N) (m : Fin M) (j : Fin 128)
    (hr : ∀ a : Fin 128, r (ix2 n a) = r' (ix2 m a)) (hc : ∀ a : Fin 128, c (ix2 n a) = c' (ix2 m a))
    (hw : w (ix2 n (0 : Fin 1)) = w' (ix2 m (0 : Fin 1))) :
    Cert.Spec.edgeMlp r c w Wa Wb Wc b1 W2 b2 (ix2 n j) = Cert.Spec.edgeMlp r' c' w' Wa Wb Wc b1 W2 b2 (ix2 m j) := by
  show Cert.Spec.out2 (Cert.Spec.edgePre r c w Wa Wb Wc b1 n) W2 b2 j = Cert.Spec.out2 (Cert.Spec.edgePre r' c' w' Wa Wb Wc b1 m) W2 b2 j
  have hpre : Cert.Spec.edgePre r c w Wa Wb Wc b1 n = Cert.Spec.edgePre r' c' w' Wa Wb Wc b1 m := by
    funext k
    simp only [Cert.Spec.edgePre, hr, hc, hw]
  rw [hpre]

/-- WHAT POINT t WRITES BACK is block t of the edge perceptron of the whole arrays as the region finds them. -/
theorem flushed_eq (c : Dev nD) (t : Fin cfg1.N) :
    (dat1 (F := Ideal) V c).flushed 9 t = ((cfg1.win 9).blk t).view.read (Elt Ideal)
      (Cert.Spec.edgeMlp (N := 600000) (V c main_v5) (V c main_v6) (V c main_arg2) (V c main_v7) (V c main_v8) (V c main_v9)
        (V c main_arg8) (V c main_arg9) (V c main_arg10)) := by
  show (cfg1.win 9).cut (grid1.coords t) ((dat1 V c).after 9 t) = _
  rw [after1_9]
  unfold out1_9
  rw [View.canon_unit_zero hz]
  simp only [View.ld_unit_zero (S := S12000x128) hz, View.ld_unit_zero (S := S12000x1) hz, View.ld_unit_zero (S := S128x128) hz,
    View.ld_unit_zero (S := S1x128) hz, View.ld_unit_zero (S := S128) hz1]
  rw [pay_eq, blk3_eq, blk4_eq, blk5_eq, blk6_eq, blk7_eq, blk8_eq]
  funext y
  obtain ⟨p, q, rfl⟩ : ∃ (p : Fin 12000) (q : Fin 128), y = ix2 p q := ⟨y 0, y 1, eq_ix2 y⟩
  show Cert.Spec.edgeMlp (N := 12000) (iblk1 V c 0 t) (iblk1 V c 1 t) (iblk1 V c 2 t) (V c main_v7) (V c main_v8) (V c main_v9)
        (V c main_arg8) (V c main_arg9) (V c main_arg10) (ix2 p q)
      = Cert.Spec.edgeMlp (N := 600000) (V c main_v5) (V c main_v6) (V c main_arg2) (V c main_v7) (V c main_v8) (V c main_v9)
        (V c main_arg8) (V c main_arg9) (V c main_arg10) (((cfg1.win 9).blk t).view.emb (ix2 p q))
  rw [out_emb]
  exact edgeMlp_row _ _ _ _ _ _ _ _ _ _ _ _ p ⟨t.val * 12000 + p.val, row_lt t p⟩ q
    (fun a => blk0_apply V c t p a) (fun a => blk1_apply V c t p a) (blk2_apply V c t p 0)

/-- The edge perceptron's array after its region: the perceptron of the whole operand arrays, row by row. -/
theorem edge_arr (c : Dev nD) :
    (dat1 (F := Ideal) V c).arrAt 9 cfg1.N
      = Cert.Spec.edgeMlp (N := 600000) (V c main_v5) (V c main_v6) (V c main_arg2) (V c main_v7) (V c main_v8) (V c main_v9)
          (V c main_arg8) (V c main_arg9) (V c main_arg10) := by
  exact (dat1 (F := Ideal) V c).arrAt_eq_of_cover 9 _ (fun t _ => flushed_eq V c t) cover

end Cert.KValue.Edge

end
-- ==== Proof.Update.lean ====
import proofs.«426707_j8151847928380_3_alg».proof.Proof.Gen.KernelIdeal.Frame
import proofs.«426707_j8151847928380_3_alg».proof.Proof.Spec
import proofs.«426707_j8151847928380_3_alg».proof.Proof.LibDot
import Idealize.ShloMosaic.PureOps.Ideal.Laws
import Idealize.ShloMosaic.Lib.Pipeline.Value
import Idealize.ShloMosaic.Lib.ValueLayout

set_option maxRecDepth 16384

noncomputable section

namespace Cert.KValue.Upd

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The body's arithmetic on a block of 10000 rows -/

/-- A bias vector, made a one-row matrix and repeated down 10000 rows, reads the vector's entry of the column. -/
theorem bias128_apply (b : Vec Ideal S128 .f32) (p : Fin 10000) (k : Fin 128) :
    broadcastTo S10000x128 (shapeCast S1x128 b shapeCasts_S128_S1x128) broadcasts_S1x128_S10000x128 (ix2 p k) = b (ix1 k) :=
  (broadcastTo_1b_ab_apply _ _ p k).trans (shapeCast_a_1a_apply _ _ 0 k)

/-- The same for the second layer's bias of length 6. -/
theorem bias6_apply (b : Vec Ideal S6 .f32) (p : Fin 10000) (k : Fin 6) :
    broadcastTo S10000x6 (shapeCast S1x6 b shapeCasts_S6_S1x6) broadcasts_S1x6_S10000x6 (ix2 p k) = b (ix1 k) :=
  (broadcastTo_1b_ab_apply _ _ p k).trans (shapeCast_a_1a_apply _ _ 0 k)

/-- A block of 10000 rows times a 128 × 128 matrix, accumulated into zero: entry (p, k) is the row-by-column sum. -/
theorem mm128_apply (l : FVec Ideal S10000x128 .f32) (r : FVec Ideal S128x128 .f32) (p : Fin 10000) (k : Fin 128) :
    matmul dot_S10000x128_S128x128_S10000x128_1_0_0_1_n_n none l r (constant (F := Ideal) S10000x128 .f32 0x00000000#32) (ix2 p k)
      = ∑ a : Fin 128, l (ix2 p a) * r (ix2 a k) := by
  refine (Cert.LibDot.matmul_rows_apply _ rfl rfl rfl rfl rfl rfl none l r _ p k).trans ?_
  rw [constant_apply, Ideal.ofBits_zero_f32, zero_add]

/-- The same for the 128 × 6 matrix of the second layer. -/
theorem mm6_apply (l : FVec Ideal S10000x128 .f32) (r : FVec Ideal S128x6 .f32) (p : Fin 10000) (k : Fin 6) :
    matmul dot_S10000x128_S128x6_S10000x6_1_0_0_1_n_n none l r (constant (F := Ideal) S10000x6 .f32 0x00000000#32) (ix2 p k)
      = ∑ a : Fin 128, l (ix2 p a) * r (ix2 a k) := by
  refine (Cert.LibDot.matmul_rows_apply _ rfl rfl rfl rfl rfl rfl none l r _ p k).trans ?_
  rw [constant_apply, Ideal.ofBits_zero_f32, zero_add]

/-- THE BODY'S ARITHMETIC IS THE NODE UPDATE ON A BLOCK OF 10000 ROWS. -/
theorem pay_eq (h : Vec Ideal S10000x128 .f32) (Wa : Vec Ideal S128x128 .f32) (s : Vec Ideal S10000x128 .f32)
    (Wb : Vec Ideal S128x128 .f32) (b1 : Vec Ideal S128 .f32) (W2 : Vec Ideal S128x6 .f32) (b2 : Vec Ideal S6 .f32) :
    k2_pay1 (F := Ideal) h Wa s Wb b1 W2 b2 = Cert.Spec.nodeUpd (N := 10000) h s Wa Wb b1 W2 b2 := by
  funext j
  obtain ⟨p, q, rfl⟩ : ∃ (p : Fin 10000) (q : Fin 6), j = ix2 p q := ⟨j 0, j 1, eq_ix2 j⟩
  unfold k2_pay1
  rw [shapeCast_self, shapeCast_self, shapeCast_self, shapeCast_self]
  rw [addf_apply, bias6_apply, mm6_apply]
  show _ = Cert.Spec.out2 (Cert.Spec.updPre h s Wa Wb b1 p) W2 b2 q
  unfold Cert.Spec.out2
  refine congrArg (· + b2 (ix1 q)) (Finset.sum_congr rfl fun k _ => ?_)
  refine congrArg (· * W2 (ix2 k q)) ?_
  rw [maximumf_apply, broadcast_apply, addf_apply, addf_apply, bias128_apply, mm128_apply, mm128_apply]
  unfold Cert.Spec.updPre
  exact congrArg (max _) Ideal.ofBits_zero_f32

/-! ## The grid's block indices, and the cover of the output array -/

/-- The zero offsets of a rank-2 and of a rank-1 whole-buffer access, as constant functions. -/
theorem zero_off2 : (![0, 0] : Fin 2 → Nat) = fun _ => 0 := funext fun a => by fin_cases a <;> rfl
theorem zero_off1 : (![0] : Fin 1 → Nat) = fun _ => 0 := funext fun a => by fin_cases a <;> rfl

/-- The block index maps over the grid: the two row-blocked operands move with the output's row block, which is the
    point's number; every other block index is zero. -/
theorem block_indices : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (1 : Fin 2) = 0 ∧ win2_7.index t (0 : Fin 2) ≤ 4 :=
  (by decide +kernel : ∀ t : Fin grid2.N, _)

/-- Every row block of the output is some point's. -/
theorem row_block_onto : ∀ q : Fin 5, ∃ t : Fin cfg2.N, win2_7.index t = ![q.val, 0] :=
  (by decide +kernel : ∀ q : Fin 5, ∃ t : Fin grid2.N, win2_7.index t = ![q.val, 0])

/-- An index of the output array is in point t's block iff each coordinate is in the block's range on its axis. -/
theorem mem_blk (t : Fin cfg2.N) (i : S50000x6.Idx) :
    i ∈ ((cfg2.win 7).blk t).view.set ↔ ∀ a : Fin 2, win2_7.index t a * S10000x6.size a ≤ (i a).val ∧ (i a).val < win2_7.index t a * S10000x6.size a + S10000x6.size a := by
  show i ∈ ((View.whole main_v16).slice (win2_7.rect t)).set ↔ _
  rw [View.set_slice_whole, Rect.mem_set_unit]
  exact Iff.rfl

/-- Every index of the output array lies in the block of the point numbered by its row divided by 10000. -/
theorem cover (i : S50000x6.Idx) : ∃ t : Fin cfg2.N, (cfg2.win 7).flush t = true ∧ i ∈ ((cfg2.win 7).blk t).view.set := by
  have hi0 : (i 0).val < 50000 := (i 0).isLt
  have hi1 : (i 1).val < 6 := (i 1).isLt
  obtain ⟨t, ht⟩ := row_block_onto ⟨(i 0).val / 10000, by omega⟩
  have q0 : win2_7.index t (0 : Fin 2) = (i 0).val / 10000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 6 ≤ (i 1).val ∧ (i 1).val < win2_7.index t (1 : Fin 2) * 6 + 6; omega

/-! ## What a point writes back, and the array after the region -/

/-- ROW LOCALITY: an entry of the update depends on its own row of the two row-indexed operands only, so two pairs of
    operands that agree on a row of each give the same entries along it. -/
theorem nodeUpd_row {N M : Nat} (h s : Cert.Spec.Mat N 128) (h' s' : Cert.Spec.Mat M 128) (Wa Wb : Cert.Spec.Mat 128 128)
    (b1 : Cert.Spec.Row 128) (W2 : Cert.Spec.Mat 128 6) (b2 : Cert.Spec.Row 6)
    (i : (⟨2, ![N, 6]⟩ : Shape).Idx) (i' : (⟨2, ![M, 6]⟩ : Shape).Idx) (hj : (i 1).val = (i' 1).val)
    (hh : ∀ a : Fin 128, h (ix2 (i 0) a) = h' (ix2 (i' 0) a)) (hs : ∀ a : Fin 128, s (ix2 (i 0) a) = s' (ix2 (i' 0) a)) :
    Cert.Spec.nodeUpd h s Wa Wb b1 W2 b2 i = Cert.Spec.nodeUpd h' s' Wa Wb b1 W2 b2 i' := by
  obtain ⟨n, j, rfl⟩ : ∃ (n : Fin N) (j : Fin 6), i = ix2 n j := ⟨i 0, i 1, eq_ix2 i⟩
  obtain ⟨m, j', rfl⟩ : ∃ (m : Fin M) (j' : Fin 6), i' = ix2 m j' := ⟨i' 0, i' 1, eq_ix2 i'⟩
  obtain rfl : j = j' := Fin.ext hj
  have hh' : ∀ a : Fin 128, h (ix2 n a) = h' (ix2 m a) := hh
  have hs' : ∀ a : Fin 128, s (ix2 n a) = s' (ix2 m a) := hs
  show Cert.Spec.out2 (Cert.Spec.updPre h s Wa Wb b1 n) W2 b2 j = Cert.Spec.out2 (Cert.Spec.updPre h' s' Wa Wb b1 m) W2 b2 j
  have hpre : Cert.Spec.updPre h s Wa Wb b1 n = Cert.Spec.updPre h' s' Wa Wb b1 m := by
    funext k
    simp only [Cert.Spec.updPre, hh', hs']
  rw [hpre]

/-- The block of an operand staged whole is the array itself, its block index being zero on every axis: the first piece
    of the first layer's matrix. -/
theorem blk_Wa (c : Dev nD) (t : Fin cfg2.N) : iblk2 (F := Ideal) V c 2 t = V c main_v14 := by
  obtain ⟨-, -, -, -, e0, e1, -⟩ := block_indices t
  funext x
  show V c main_v14 (((cfg2.win 2).blk t).view.emb x) = V c main_v14 x
  refine congrArg _ (funext fun a => Fin.ext ?_)
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- The second piece of the first layer's matrix. -/
theorem blk_Wb (c : Dev nD) (t : Fin cfg2.N) : iblk2 (F := Ideal) V c 3 t = V c main_v15 := by
  obtain ⟨-, -, -, -, -, -, e0, e1, -⟩ := block_indices t
  funext x
  show V c main_v15 (((cfg2.win 3).blk t).view.emb x) = V c main_v15 x
  refine congrArg _ (funext fun a => Fin.ext ?_)
  match a with
  | ⟨0, _⟩ => show win2_3.index t (0 : Fin 2) * 128 + 1 * (x 0).val = (x 0).val; omega
  | ⟨1, _⟩ => show win2_3.index t (1 : Fin 2) * 128 + 1 * (x 1).val = (x 1).val; omega

/-- The first layer's bias. -/
theorem blk_b1 (c : Dev nD) (t : Fin cfg2.N) : iblk2 (F := Ideal) V c 4 t = V c main_arg12 := by
  obtain ⟨-, -, -, -, -, -, -, -, e0, -⟩ := block_indices t
  funext x
  show V c main_arg12 (((cfg2.win 4).blk t).view.emb x) = V c main_arg12 x
  refine congrArg _ (funext fun a => Fin.ext ?_)
  match a with
  | ⟨0, _⟩ => show win2_4.index t (0 : Fin 1) * 128 + 1 * (x 0).val = (x 0).val; omega

/-- The second layer's matrix. -/
theorem blk_W2 (c : Dev nD) (t : Fin cfg2.N) : iblk2 (F := Ideal) V c 5 t = V c main_arg13 := by
  obtain ⟨-, -, -, -, -, -, -, -, -, e0, e1, -⟩ := block_indices t
  funext x
  show V c main_arg13 (((cfg2.win 5).blk t).view.emb x) = V c main_arg13 x
  refine congrArg _ (funext fun a => Fin.ext ?_)
  match a with
  | ⟨0, _⟩ => show win2_5.index t (0 : Fin 2) * 128 + 1 * (x 0).val = (x 0).val; omega
  | ⟨1, _⟩ => show win2_5.index t (1 : Fin 2) * 6 + 1 * (x 1).val = (x 1).val; omega

/-- The second layer's bias. -/
theorem blk_b2 (c : Dev nD) (t : Fin cfg2.N) : iblk2 (F := Ideal) V c 6 t = V c main_arg14 := by
  obtain ⟨-, -, -, -, -, -, -, -, -, -, -, e0, -⟩ := block_indices t
  funext x
  show V c main_arg14 (((cfg2.win 6).blk t).view.emb x) = V c main_arg14 x
  refine congrArg _ (funext fun a => Fin.ext ?_)
  match a with
  | ⟨0, _⟩ => show win2_6.index t (0 : Fin 1) * 6 + 1 * (x 0).val = (x 0).val; omega

/-- WHAT POINT t WRITES BACK is block t of the node update of the whole arrays as the region finds them. -/
theorem flushed_eq (c : Dev nD) (t : Fin cfg2.N) :
    (dat2 (F := Ideal) V c).flushed 7 t
      = ((cfg2.win 7).blk t).view.read (Elt Ideal)
          (Cert.Spec.nodeUpd (N := 50000) (V c main_v0) (V c main_v13) (V c main_v14) (V c main_v15)
            (V c main_arg12) (V c main_arg13) (V c main_arg14)) := by
  show (cfg2.win 7).cut (grid2.coords t) ((dat2 V c).after 7 t) = _
  rw [after2_7]
  unfold out2_7
  rw [View.canon_unit_zero zero_off2]
  simp only [View.ld_unit_zero (S := S10000x128) zero_off2, View.ld_unit_zero (S := S128x128) zero_off2,
    View.ld_unit_zero (S := S128x6) zero_off2, View.ld_unit_zero (S := S128) zero_off1, View.ld_unit_zero (S := S6) zero_off1]
  rw [pay_eq, blk_Wa, blk_Wb, blk_b1, blk_W2, blk_b2]
  obtain ⟨e0, e1, e2, e3, -, -, -, -, -, -, -, -, e7, -⟩ := block_indices t
  funext y
  show Cert.Spec.nodeUpd (N := 10000) (iblk2 V c 0 t) (iblk2 V c 1 t) _ _ _ _ _ y
    = Cert.Spec.nodeUpd (N := 50000) _ _ _ _ _ _ _ (((cfg2.win 7).blk t).view.emb y)
  refine nodeUpd_row _ _ _ _ _ _ _ _ _ y (((cfg2.win 7).blk t).view.emb y) ?_ (fun a => ?_) (fun a => ?_)
  · show (y 1).val = win2_7.index t (1 : Fin 2) * 6 + 1 * (y 1).val
    omega
  · show V c main_v0 (((cfg2.win 0).blk t).view.emb (ix2 (y 0) a)) = V c main_v0 (ix2 ((((cfg2.win 7).blk t).view.emb y) 0) a)
    refine congrArg _ (funext fun ax => Fin.ext ?_)
    match ax with
    | ⟨0, _⟩ => show win2_0.index t (0 : Fin 2) * 10000 + 1 * (y 0).val = win2_7.index t (0 : Fin 2) * 10000 + 1 * (y 0).val; omega
    | ⟨1, _⟩ => show win2_0.index t (1 : Fin 2) * 128 + 1 * a.val = a.val; omega
  · show V c main_v13 (((cfg2.win 1).blk t).view.emb (ix2 (y 0) a)) = V c main_v13 (ix2 ((((cfg2.win 7).blk t).view.emb y) 0) a)
    refine congrArg _ (funext fun ax => Fin.ext ?_)
    match ax with
    | ⟨0, _⟩ => show win2_1.index t (0 : Fin 2) * 10000 + 1 * (y 0).val = win2_7.index t (0 : Fin 2) * 10000 + 1 * (y 0).val; omega
    | ⟨1, _⟩ => show win2_1.index t (1 : Fin 2) * 128 + 1 * a.val = a.val; omega

/-- The node update's array after its region: the update of the whole operand arrays, row by row. -/
theorem upd_arr (c : Dev nD) :
    (dat2 (F := Ideal) V c).arrAt 7 cfg2.N
      = Cert.Spec.nodeUpd (N := 50000) (V c main_v0) (V c main_v13) (V c main_v14) (V c main_v15)
          (V c main_arg12) (V c main_arg13) (V c main_arg14) :=
  (dat2 (F := Ideal) V c).arrAt_eq_of_cover 7 _ (fun t _ => flushed_eq V c t) cover

end Cert.KValue.Upd

end
-- ==== Proof.Stretch.lean ====
/-
  The host operations between the three perceptron regions, each stretch read at the buffer it feeds forward, over
  ANY contents `U` of the buffers when the stretch starts.

  * Row r of the edge list, as a vector of node numbers: a slice of the [2, E] list reshaped to [E].
  * The endpoint read, as the program spells it: a node number v is first wrapped (50000 is added where v < 0), the
    row of the encodings at the wrapped number is read, and a row whose wrapped number lies outside [0, 49999] is
    replaced by a fill value. When every node number lies in [0, 50000) no number is wrapped out of range, the mask
    that guards the fill is all ones, and the read is the plain indexed read of rows.
  * The pieces of a first-layer weight matrix: slices of its rows.
  * The sum of the edges' messages into their target nodes: an indexed sum of rows into a zero array.
-/
import proofs.«426707_j8151847928380_3_alg».proof.Proof.Gen.KernelIdeal.Frame
import proofs.«426707_j8151847928380_3_alg».proof.Proof.Spec
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.Value
import Idealize.ShloMosaic.PureOps.Ideal

set_option maxRecDepth 16384

noncomputable section

namespace Cert.KStretch

open Cert.KernelIdeal Cert.KernelIdeal.Gen Idealize.ShloMosaic Idealize.ShloMosaic.TcCoe Idealize.SL.Sem
open Idealize.ShloMosaic.StableHlo Idealize.ShloMosaic.ValueIdx

variable (U : Valuation τ sig (Elt Ideal))

/-! ## The edge list's rows -/

/-- Row `r` of the edge list as a vector: entry e is the list's entry (r, e). -/
abbrev endsRow (ei : IVec S2x600000 32) (r : Fin 2) : IVec S600000 32 := Cert.Spec.endsOf ei r

/-- A node number below zero counts from the end. -/
abbrev wrapped (v : IVec S600000 32) : IVec S600000 32 := Cert.Spec.wrap v

/-- A vector of node numbers as a column. -/
abbrev asCol (v : IVec S600000 32) : IVec S600000x1 32 := Cert.Spec.col v

/-! ## The endpoint read as the program spells it -/

/-- The wrapped node numbers as a column, in the program's operations. -/
def takeIdx (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

/-- Which edges' wrapped node number lies in [0, 49999], in the program's operations. -/
def takeMask (v : IVec S600000 32) : IVec S600000 1 :=
  Host.reduce IntOp.andi
    (andi (cmpi .sge (takeIdx v) (broadcastInDim S600000x1 ![] bcast_S_S600000x1 (constantI S_ 32 0#32)))
      (cmpi .sle (takeIdx v) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The guarded read of the encodings' rows at the wrapped node numbers. -/
def takeRows (h : FVec Ideal S50000x128 .f32) (v : IVec S600000 32) : FVec Ideal S600000x128 .f32 :=
  select (broadcastInDim S600000x128 ![0] bcast_S600000_S600000x128_0 (takeMask v))
    (Host.gather gather_S50000x128_S600000x1_S600000x128_1_0_n_n_0_1_1128 h (takeIdx v))
    (broadcastInDim S600000x128 ![] bcast_S_S600000x128 (constant (F := Ideal) S_ .f32 0x7FC00000#32))

/-! ## Each stretch at the buffer it feeds forward -/

/-- A [1, E] slice of the edge list at row offset `r`, reshaped to [E], reads entry e at the list's entry (r, e): the
    reshape keeps the row-major position, and the slice shifts the row coordinate by its offset. -/
theorem slice_row (ei : IVec S2x600000 32) (r : Fin 2) (off : Fin 2 → Nat) (h : S2x600000.Slices off S1x600000)
    (i : S600000.Idx) (hoff : ∀ a : Fin 2, ((ix2 r (i 0) : S2x600000.Idx) a).val = off a + ((ix2 (0 : Fin 1) (i 0) : S1x600000.Idx) (a.cast h.1.symm)).val) :
    shapeCast S600000 (extractStridedSlice S1x600000 off ei h) shapeCasts_S1x600000_S600000 i = endsRow ei r i := by
  refine (shapeCast_apply (extractStridedSlice S1x600000 off ei h) shapeCasts_S1x600000_S600000 i
    (ix2 (0 : Fin 1) (i 0) : S1x600000.Idx) ?_).trans ?_
  · rw [Shape.rowMajor_val_two, Shape.rowMajor_val_one]
    show (0 : Nat) * 600000 + (i 0).val = (i 0).val
    omega
  · exact extractStridedSlice_apply off ei h _ (ix2 r (i 0)) hoff

/-- Row 0 of the edge list after the first stretch. -/
theorem ends_row : StableHlo.after (hostOps1 (F := Ideal)) U (Proc.devRef .tc main_v2)
    = endsRow (U (Proc.devRef .tc main_arg1)) 0 := by
  after_results
  funext i
  exact slice_row (U (Proc.devRef .tc main_arg1)) 0 _ _ i (fun a => by
    match a with
    | ⟨0, _⟩ => rfl
    | ⟨1, _⟩ => show (i 0).val = 0 + (i 0).val; omega)

/-- Row 1 of the edge list after the first stretch. -/
theorem ends_col : StableHlo.after (hostOps1 (F := Ideal)) U (Proc.devRef .tc main_v4)
    = endsRow (U (Proc.devRef .tc main_arg1)) 1 := by
  after_results
  funext i
  exact slice_row (U (Proc.devRef .tc main_arg1)) 1 _ _ i (fun a => by
    match a with
    | ⟨0, _⟩ => rfl
    | ⟨1, _⟩ => show (i 0).val = 0 + (i 0).val; omega)

set_option maxHeartbeats 4000000 in
/-- The source endpoints' encodings after the second stretch: the guarded read at row 0's node numbers. -/
theorem take_row : StableHlo.after (hostOps1_1 (F := Ideal)) U (Proc.devRef .tc main_v5)
    = takeRows (U (Proc.devRef .tc main_v0)) (U (Proc.devRef .tc main_v2)) := by
  unfold takeRows takeMask takeIdx
  after_results_simp
  simp only [TRef.ofBuf, TRef.toBuf, cast_cast, cast_eq]

set_option maxHeartbeats 4000000 in
/-- The target endpoints' encodings after the third stretch: the guarded read at row 1's node numbers. -/
theorem take_col : StableHlo.after (hostOps1_2 (F := Ideal)) U (Proc.devRef .tc main_v6)
    = takeRows (U (Proc.devRef .tc main_v0)) (U (Proc.devRef .tc main_v4)) := by
  unfold takeRows takeMask takeIdx
  after_results_simp
  simp only [TRef.ofBuf, TRef.toBuf, cast_cast, cast_eq]

/-- The three pieces of the edge perceptron's first-layer weights after the fourth stretch. -/
theorem piece_a : StableHlo.after (hostOps1_3 (F := Ideal)) U (Proc.devRef .tc main_v7)
    = extractStridedSlice S128x128 ![0, 0] (U (Proc.devRef .tc main_arg7)) slices_S257x128_S128x128_0_0 := by
  after_results
theorem piece_b : StableHlo.after (hostOps1_3 (F := Ideal)) U (Proc.devRef .tc main_v8)
    = extractStridedSlice S128x128 ![128, 0] (U (Proc.devRef .tc main_arg7)) slices_S257x128_S128x128_128_0 := by
  after_results
theorem piece_c : StableHlo.after (hostOps1_3 (F := Ideal)) U (Proc.devRef .tc main_v9)
    = extractStridedSlice S1x128 ![256, 0] (U (Proc.devRef .tc main_arg7)) slices_S257x128_S1x128_256_0 := by
  after_results

/-- The messages summed into their target nodes, after the stretch before the node update. -/
theorem summed : StableHlo.after (hostOps2 (F := Ideal)) U (Proc.devRef .tc main_v13)
    = Host.scatterAdd scatter_S50000x128_S600000x1_S600000x128_1_0_0_1
        (broadcastInDim S50000x128 ![] bcast_S_S50000x128 (constant (F := Ideal) S_ .f32 0x00000000#32))
        (broadcastInDim S600000x1 ![0] bcast_S600000_S600000x1_0 (U (Proc.devRef .tc main_v4)))
        (U (Proc.devRef .tc main_v10)) := by
  after_results

/-- The two pieces of the node update's first-layer weights, after the same stretch. -/
theorem upd_piece_a : StableHlo.after (hostOps2 (F := Ideal)) U (Proc.devRef .tc main_v14)
    = extractStridedSlice S128x128 ![0, 0] (U (Proc.devRef .tc main_arg11)) slices_S256x128_S128x128_0_0 := by
  after_results
theorem upd_piece_b : StableHlo.after (hostOps2 (F := Ideal)) U (Proc.devRef .tc main_v15)
    = extractStridedSlice S128x128 ![128, 0] (U (Proc.devRef .tc main_arg11)) slices_S256x128_S128x128_128_0 := by
  after_results

/-! ## The guarded read is the plain read when the node numbers are in range -/

/-- The program's column of wrapped node numbers is the column of the wrapped vector, entry by entry. -/
theorem takeIdx_eq (v : IVec S600000 32) : takeIdx v = asCol (wrapped v) := by
  funext i
  unfold takeIdx
  refine (broadcastInDim_apply ![0] bcast_S600000_S600000x1_0 _ i (ix1 (i 0) : S600000.Idx) (fun a => ?_)).trans ?_
  · match a with
    | ⟨0, _⟩ => show (i 0).val = if (600000 : Nat) = 1 then 0 else (i 0).val; rw [if_neg (by decide)]
  · rfl

/-- A left fold by `and` from 1 over words that are all 1 is 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a List.mem_cons_self, show IntOp.andi 1#1 1#1 = 1#1 from by decide]
    exact ih fun n hn => hf n (List.mem_cons_of_mem _ hn)

/-- A node number in [0, 50000) is not wrapped, and is at least 0 and at most 49999 as a signed word. -/
theorem in_range_facts (w : BitVec 32) (h0 : IntOp.cmpi .sge w 0#32 = 1#1) (h1 : IntOp.cmpi .slt w 50000#32 = 1#1) :
    Scalar.select (IntOp.cmpi .slt w 0#32) (IntOp.addi w 50000#32) w = w
      ∧ IntOp.cmpi .sle w 49999#32 = 1#1 := by
  have e0 : (0#32 : BitVec 32).toInt = 0 := by decide
  have e5 : (50000#32 : BitVec 32).toInt = 50000 := by decide
  have e4 : (49999#32 : BitVec 32).toInt = 49999 := by decide
  have h0' : BitVec.ofBool ((0#32 : BitVec 32).sle w) = 1#1 := h0
  have h1' : BitVec.ofBool (w.slt 50000#32) = 1#1 := h1
  have g0 : 0 ≤ w.toInt := by
    have := (StableHlo.Predicate.ofBool_eq_one_iff _).1 h0'
    simp only [BitVec.sle, decide_eq_true_eq, e0] at this
    exact this
  have g1 : w.toInt < 50000 := by
    have := (StableHlo.Predicate.ofBool_eq_one_iff _).1 h1'
    simp only [BitVec.slt, decide_eq_true_eq, e5] at this
    exact this
  constructor
  · have hneg : IntOp.cmpi .slt w 0#32 = 0#1 := by
      show BitVec.ofBool (w.slt 0#32) = 0#1
      have : w.slt 0#32 = false := by
        simp only [BitVec.slt, decide_eq_false_iff_not, e0]
        omega
      rw [this]
      rfl
    rw [hneg]
    exact select_zero _ _
  · show BitVec.ofBool (w.sle 49999#32) = 1#1
    refine (StableHlo.Predicate.ofBool_eq_one_iff _).2 ?_
    simp only [BitVec.sle, decide_eq_true_eq, e4]
    omega

end Cert.KStretch

end
-- ==== Proof.Glue.lean ====
/-
  The result array of the whole program, read back through its three perceptron regions and the host operations
  between them, as ONE composition of the regions' row-wise functions:

    encodings h   = the node encoder of the node features;
    endpoints     = the guarded reads of h's rows at rows 0 and 1 of the edge list;
    messages      = the edge perceptron of (source rows | target rows | edge attribute), its first-layer weights cut
                    into their three pieces;
    sums          = the messages added into a zero array at their target nodes;
    result        = the node update of (h | sums), its first-layer weights cut into their two pieces.

  Each boundary between two segments holds, at a buffer no later segment writes, what the earlier boundary held; at a
  region's output array, what that region's write-backs leave; at a host operation's result, the operation of its
  operands. No precondition is used here.
-/
import proofs.«426707_j8151847928380_3_alg».proof.Proof.Gen.KernelIdeal.Frame
import proofs.«426707_j8151847928380_3_alg».proof.Proof.Spec
import proofs.«426707_j8151847928380_3_alg».proof.Proof.Node
import proofs.«426707_j8151847928380_3_alg».proof.Proof.Edge
import proofs.«426707_j8151847928380_3_alg».proof.Proof.Update
import proofs.«426707_j8151847928380_3_alg».proof.Proof.Stretch

set_option maxRecDepth 16384

noncomputable section

namespace Cert.KGlue

open Cert.KernelIdeal Cert.KernelIdeal.Gen Idealize.ShloMosaic Idealize.ShloMosaic.TcCoe Idealize.SL.Sem
open Idealize.ShloMosaic.StableHlo Idealize.ShloMosaic.ValueIdx Cert.KStretch Cert.KValue Cert.KValue.Edge Cert.KValue.Upd

variable (m : (ℓ : Loc nD τ sig) → Buf (Elt Ideal) ℓ) (ρ : Dev nD → PrngReg) (c : Dev nD)

/-- A stretch of host operations leaves a buffer none of them writes as it found it. -/
macro "host_keeps" : tactic => `(tactic|
  (refine StableHlo.after_of_forall_not_mem _ _ (List.forall_iff_forall_mem.mp ?_)
   simp only [hostOps1, hostOps1_1, hostOps1_2, hostOps1_3, hostOps2, List.flatten_cons, List.flatten_nil, List.append_nil,
     List.cons_append, List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## The argument arrays, at the boundaries where a region or a host operation reads them -/

/-- After the first region a buffer that is none of its arrays holds its launch contents. -/
theorem at1_launch (b : Ref sig .tc) (hb : ∀ w, Pipeline.arrRef spec0 w ≠ b) :
    W1 m ρ c (Proc.devRef .tc b) = m ((c : Thread nD τ).loc b) :=
  (W1_of_ne m ρ c b hb).trans rfl

/-- The edge attributes and the edge perceptron's biases and second-layer weights, at the second region's entry. -/
theorem at5_arg2 : W5 m ρ c (Proc.devRef .tc main_arg2) = (m ((c : Thread nD τ).loc main_arg2)) :=
  calc W5 m ρ c (Proc.devRef .tc main_arg2)
    _ = W4 m ρ c (Proc.devRef .tc main_arg2) := by host_keeps
    _ = W3 m ρ c (Proc.devRef .tc main_arg2) := by host_keeps
    _ = W2 m ρ c (Proc.devRef .tc main_arg2) := by host_keeps
    _ = W1 m ρ c (Proc.devRef .tc main_arg2) := by host_keeps
    _ = m ((c : Thread nD τ).loc main_arg2) := at1_launch m ρ c main_arg2 (by decide)

theorem at5_arg8 : W5 m ρ c (Proc.devRef .tc main_arg8) = (m ((c : Thread nD τ).loc main_arg8)) :=
  calc W5 m ρ c (Proc.devRef .tc main_arg8)
    _ = W4 m ρ c (Proc.devRef .tc main_arg8) := by host_keeps
    _ = W3 m ρ c (Proc.devRef .tc main_arg8) := by host_keeps
    _ = W2 m ρ c (Proc.devRef .tc main_arg8) := by host_keeps
    _ = W1 m ρ c (Proc.devRef .tc main_arg8) := by host_keeps
    _ = m ((c : Thread nD τ).loc main_arg8) := at1_launch m ρ c main_arg8 (by decide)

theorem at5_arg9 : W5 m ρ c (Proc.devRef .tc main_arg9) = (m ((c : Thread nD τ).loc main_arg9)) :=
  calc W5 m ρ c (Proc.devRef .tc main_arg9)
    _ = W4 m ρ c (Proc.devRef .tc main_arg9) := by host_keeps
    _ = W3 m ρ c (Proc.devRef .tc main_arg9) := by host_keeps
    _ = W2 m ρ c (Proc.devRef .tc main_arg9) := by host_keeps
    _ = W1 m ρ c (Proc.devRef .tc main_arg9) := by host_keeps
    _ = m ((c : Thread nD τ).loc main_arg9) := at1_launch m ρ c main_arg9 (by decide)

theorem at5_arg10 : W5 m ρ c (Proc.devRef .tc main_arg10) = (m ((c : Thread nD τ).loc main_arg10)) :=
  calc W5 m ρ c (Proc.devRef .tc main_arg10)
    _ = W4 m ρ c (Proc.devRef .tc main_arg10) := by host_keeps
    _ = W3 m ρ c (Proc.devRef .tc main_arg10) := by host_keeps
    _ = W2 m ρ c (Proc.devRef .tc main_arg10) := by host_keeps
    _ = W1 m ρ c (Proc.devRef .tc main_arg10) := by host_keeps
    _ = m ((c : Thread nD τ).loc main_arg10) := at1_launch m ρ c main_arg10 (by decide)

/-- The edge perceptron's first-layer weights, where the host cuts them into pieces. -/
theorem at4_arg7 : W4 m ρ c (Proc.devRef .tc main_arg7) = (m ((c : Thread nD τ).loc main_arg7)) :=
  calc W4 m ρ c (Proc.devRef .tc main_arg7)
    _ = W3 m ρ c (Proc.devRef .tc main_arg7) := by host_keeps
    _ = W2 m ρ c (Proc.devRef .tc main_arg7) := by host_keeps
    _ = W1 m ρ c (Proc.devRef .tc main_arg7) := by host_keeps
    _ = m ((c : Thread nD τ).loc main_arg7) := at1_launch m ρ c main_arg7 (by decide)

/-- The node update's first-layer weights, where the host cuts them into pieces. -/
theorem at6_arg11 : W6 m ρ c (Proc.devRef .tc main_arg11) = (m ((c : Thread nD τ).loc main_arg11)) :=
  calc W6 m ρ c (Proc.devRef .tc main_arg11)
    _ = W5 m ρ c (Proc.devRef .tc main_arg11) := W6_of_ne m ρ c main_arg11 (by decide)
    _ = W4 m ρ c (Proc.devRef .tc main_arg11) := by host_keeps
    _ = W3 m ρ c (Proc.devRef .tc main_arg11) := by host_keeps
    _ = W2 m ρ c (Proc.devRef .tc main_arg11) := by host_keeps
    _ = W1 m ρ c (Proc.devRef .tc main_arg11) := by host_keeps
    _ = m ((c : Thread nD τ).loc main_arg11) := at1_launch m ρ c main_arg11 (by decide)

/-- The node update's biases and second-layer weights, at the third region's entry. -/
theorem at7_arg12 : W7 m ρ c (Proc.devRef .tc main_arg12) = (m ((c : Thread nD τ).loc main_arg12)) :=
  calc W7 m ρ c (Proc.devRef .tc main_arg12)
    _ = W6 m ρ c (Proc.devRef .tc main_arg12) := by host_keeps
    _ = W5 m ρ c (Proc.devRef .tc main_arg12) := W6_of_ne m ρ c main_arg12 (by decide)
    _ = W4 m ρ c (Proc.devRef .tc main_arg12) := by host_keeps
    _ = W3 m ρ c (Proc.devRef .tc main_arg12) := by host_keeps
    _ = W2 m ρ c (Proc.devRef .tc main_arg12) := by host_keeps
    _ = W1 m ρ c (Proc.devRef .tc main_arg12) := by host_keeps
    _ = m ((c : Thread nD τ).loc main_arg12) := at1_launch m ρ c main_arg12 (by decide)

theorem at7_arg13 : W7 m ρ c (Proc.devRef .tc main_arg13) = (m ((c : Thread nD τ).loc main_arg13)) :=
  calc W7 m ρ c (Proc.devRef .tc main_arg13)
    _ = W6 m ρ c (Proc.devRef .tc main_arg13) := by host_keeps
    _ = W5 m ρ c (Proc.devRef .tc main_arg13) := W6_of_ne m ρ c main_arg13 (by decide)
    _ = W4 m ρ c (Proc.devRef .tc main_arg13) := by host_keeps
    _ = W3 m ρ c (Proc.devRef .tc main_arg13) := by host_keeps
    _ = W2 m ρ c (Proc.devRef .tc main_arg13) := by host_keeps
    _ = W1 m ρ c (Proc.devRef .tc main_arg13) := by host_keeps
    _ = m ((c : Thread nD τ).loc main_arg13) := at1_launch m ρ c main_arg13 (by decide)

theorem at7_arg14 : W7 m ρ c (Proc.devRef .tc main_arg14) = (m ((c : Thread nD τ).loc main_arg14)) :=
  calc W7 m ρ c (Proc.devRef .tc main_arg14)
    _ = W6 m ρ c (Proc.devRef .tc main_arg14) := by host_keeps
    _ = W5 m ρ c (Proc.devRef .tc main_arg14) := W6_of_ne m ρ c main_arg14 (by decide)
    _ = W4 m ρ c (Proc.devRef .tc main_arg14) := by host_keeps
    _ = W3 m ρ c (Proc.devRef .tc main_arg14) := by host_keeps
    _ = W2 m ρ c (Proc.devRef .tc main_arg14) := by host_keeps
    _ = W1 m ρ c (Proc.devRef .tc main_arg14) := by host_keeps
    _ = m ((c : Thread nD τ).loc main_arg14) := at1_launch m ρ c main_arg14 (by decide)

/-! ## The encodings -/

/-- The encodings: what the first region leaves in its output array. -/
theorem enc_at1 : W1 m ρ c (Proc.devRef .tc main_v0) = (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) :=
  (W1_arr m ρ c 5).trans (node_arr (V0 m ρ) c)

/-- No host operation and no later region's write-back touches the encodings. -/
theorem enc_at2 : W2 m ρ c (Proc.devRef .tc main_v0) = (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) :=
  calc W2 m ρ c (Proc.devRef .tc main_v0)
    _ = W1 m ρ c (Proc.devRef .tc main_v0) := by host_keeps
    _ = (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) := enc_at1 m ρ c

theorem enc_at3 : W3 m ρ c (Proc.devRef .tc main_v0) = (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) :=
  calc W3 m ρ c (Proc.devRef .tc main_v0)
    _ = W2 m ρ c (Proc.devRef .tc main_v0) := by host_keeps
    _ = (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) := enc_at2 m ρ c

theorem enc_at7 : W7 m ρ c (Proc.devRef .tc main_v0) = (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) :=
  calc W7 m ρ c (Proc.devRef .tc main_v0)
    _ = W6 m ρ c (Proc.devRef .tc main_v0) := by host_keeps
    _ = W5 m ρ c (Proc.devRef .tc main_v0) := W6_of_ne m ρ c main_v0 (by decide)
    _ = W4 m ρ c (Proc.devRef .tc main_v0) := by host_keeps
    _ = W3 m ρ c (Proc.devRef .tc main_v0) := by host_keeps
    _ = (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) := enc_at3 m ρ c

/-! ## The edge list's two rows -/

theorem row_at2 : W2 m ρ c (Proc.devRef .tc main_v2) = Cert.Spec.endsOf (m ((c : Thread nD τ).loc main_arg1)) 0 :=
  (ends_row (W1 m ρ c)).trans (congrArg (fun e => endsRow e 0) (at1_launch m ρ c main_arg1 (by decide)))

theorem col_at2 : W2 m ρ c (Proc.devRef .tc main_v4) = Cert.Spec.endsOf (m ((c : Thread nD τ).loc main_arg1)) 1 :=
  (ends_col (W1 m ρ c)).trans (congrArg (fun e => endsRow e 1) (at1_launch m ρ c main_arg1 (by decide)))

theorem col_at3 : W3 m ρ c (Proc.devRef .tc main_v4) = Cert.Spec.endsOf (m ((c : Thread nD τ).loc main_arg1)) 1 :=
  calc W3 m ρ c (Proc.devRef .tc main_v4)
    _ = W2 m ρ c (Proc.devRef .tc main_v4) := by host_keeps
    _ = Cert.Spec.endsOf (m ((c : Thread nD τ).loc main_arg1)) 1 := col_at2 m ρ c

theorem col_at6 : W6 m ρ c (Proc.devRef .tc main_v4) = Cert.Spec.endsOf (m ((c : Thread nD τ).loc main_arg1)) 1 :=
  calc W6 m ρ c (Proc.devRef .tc main_v4)
    _ = W5 m ρ c (Proc.devRef .tc main_v4) := W6_of_ne m ρ c main_v4 (by decide)
    _ = W4 m ρ c (Proc.devRef .tc main_v4) := by host_keeps
    _ = W3 m ρ c (Proc.devRef .tc main_v4) := by host_keeps
    _ = Cert.Spec.endsOf (m ((c : Thread nD τ).loc main_arg1)) 1 := col_at3 m ρ c

/-! ## The endpoints' encodings, the pieces of the weights -/

/-- The source endpoints' rows at the second region's entry: the guarded read at row 0 of the edge list. -/
theorem src_at5 : W5 m ρ c (Proc.devRef .tc main_v5) = takeRows (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) (Cert.Spec.endsOf (m ((c : Thread nD τ).loc main_arg1)) 0) :=
  calc W5 m ρ c (Proc.devRef .tc main_v5)
    _ = W4 m ρ c (Proc.devRef .tc main_v5) := by host_keeps
    _ = W3 m ρ c (Proc.devRef .tc main_v5) := by host_keeps
    _ = takeRows (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) (Cert.Spec.endsOf (m ((c : Thread nD τ).loc main_arg1)) 0) := by
        rw [show W3 m ρ c (Proc.devRef .tc main_v5) = takeRows (W2 m ρ c (Proc.devRef .tc main_v0)) (W2 m ρ c (Proc.devRef .tc main_v2)) from take_row (W2 m ρ c),
          enc_at2 m ρ c, row_at2 m ρ c]

/-- The target endpoints' rows at the second region's entry: the guarded read at row 1 of the edge list. -/
theorem dst_at5 : W5 m ρ c (Proc.devRef .tc main_v6) = takeRows (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) (Cert.Spec.endsOf (m ((c : Thread nD τ).loc main_arg1)) 1) :=
  calc W5 m ρ c (Proc.devRef .tc main_v6)
    _ = W4 m ρ c (Proc.devRef .tc main_v6) := by host_keeps
    _ = takeRows (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6))) (Cert.Spec.endsOf (m ((c : Thread nD τ).loc main_arg1)) 1) := by
        rw [show W4 m ρ c (Proc.devRef .tc main_v6) = takeRows (W3 m ρ c (Proc.devRef .tc main_v0)) (W3 m ρ c (Proc.devRef .tc main_v4)) from take_col (W3 m ρ c),
          enc_at3 m ρ c, col_at3 m ρ c]

theorem wa_at5 : W5 m ρ c (Proc.devRef .tc main_v7)
    = extractStridedSlice S128x128 ![0, 0] (m ((c : Thread nD τ).loc main_arg7)) slices_S257x128_S128x128_0_0 :=
  (piece_a (W4 m ρ c)).trans (by rw [at4_arg7 m ρ c])
theorem wb_at5 : W5 m ρ c (Proc.devRef .tc main_v8)
    = extractStridedSlice S128x128 ![128, 0] (m ((c : Thread nD τ).loc main_arg7)) slices_S257x128_S128x128_128_0 :=
  (piece_b (W4 m ρ c)).trans (by rw [at4_arg7 m ρ c])
theorem wc_at5 : W5 m ρ c (Proc.devRef .tc main_v9)
    = extractStridedSlice S1x128 ![256, 0] (m ((c : Thread nD τ).loc main_arg7)) slices_S257x128_S1x128_256_0 :=
  (piece_c (W4 m ρ c)).trans (by rw [at4_arg7 m ρ c])

/-! ## The messages, their sums, the result -/

/-- The encodings of all nodes. -/
abbrev enc : Cert.Spec.Mat 50000 128 := (Cert.Spec.nodeEnc (N := 50000) (m ((c : Thread nD τ).loc main_arg0)) (m ((c : Thread nD τ).loc main_arg3)) (m ((c : Thread nD τ).loc main_arg4)) (m ((c : Thread nD τ).loc main_arg5)) (m ((c : Thread nD τ).loc main_arg6)))

/-- The messages of all edges: the edge perceptron of the two endpoints' guarded reads and the edge attribute, its
    first-layer weights in their three pieces. -/
abbrev msgs : Cert.Spec.Mat 600000 128 :=
  Cert.Spec.edgeMlp (N := 600000) (takeRows (enc m c) (Cert.Spec.endsOf (m ((c : Thread nD τ).loc main_arg1)) 0)) (takeRows (enc m c) (Cert.Spec.endsOf (m ((c : Thread nD τ).loc main_arg1)) 1)) (m ((c : Thread nD τ).loc main_arg2))
    (extractStridedSlice S128x128 ![0, 0] (m ((c : Thread nD τ).loc main_arg7)) slices_S257x128_S128x128_0_0)
    (extractStridedSlice S128x128 ![128, 0] (m ((c : Thread nD τ).loc main_arg7)) slices_S257x128_S128x128_128_0)
    (extractStridedSlice S1x128 ![256, 0] (m ((c : Thread nD τ).loc main_arg7)) slices_S257x128_S1x128_256_0)
    (m ((c : Thread nD τ).loc main_arg8)) (m ((c : Thread nD τ).loc main_arg9)) (m ((c : Thread nD τ).loc main_arg10))

/-- The messages summed into their target nodes. -/
abbrev sums : Cert.Spec.Mat 50000 128 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (Cert.Spec.endsOf (m ((c : Thread nD τ).loc main_arg1)) 1))
    (msgs m c)

/-- What the second region leaves in its output array: the messages. -/
theorem msg_at6 : W6 m ρ c (Proc.devRef .tc main_v10) = msgs m c := by
  refine (W6_arr m ρ c 9).trans ((edge_arr (V5 m ρ) c).trans ?_)
  show Cert.Spec.edgeMlp (N := 600000) (W5 m ρ c (Proc.devRef .tc main_v5)) (W5 m ρ c (Proc.devRef .tc main_v6)) (W5 m ρ c (Proc.devRef .tc main_arg2))
    (W5 m ρ c (Proc.devRef .tc main_v7)) (W5 m ρ c (Proc.devRef .tc main_v8)) (W5 m ρ c (Proc.devRef .tc main_v9))
    (W5 m ρ c (Proc.devRef .tc main_arg8)) (W5 m ρ c (Proc.devRef .tc main_arg9)) (W5 m ρ c (Proc.devRef .tc main_arg10)) = _
  rw [src_at5 m ρ c, dst_at5 m ρ c, at5_arg2 m ρ c, wa_at5 m ρ c, wb_at5 m ρ c, wc_at5 m ρ c, at5_arg8 m ρ c, at5_arg9 m ρ c,
    at5_arg10 m ρ c]

/-- The sums at the third region's entry. -/
theorem sum_at7 : W7 m ρ c (Proc.devRef .tc main_v13) = sums m c :=
  (summed (W6 m ρ c)).trans (by rw [col_at6 m ρ c, msg_at6 m ρ c])

theorem ua_at7 : W7 m ρ c (Proc.devRef .tc main_v14)
    = extractStridedSlice S128x128 ![0, 0] (m ((c : Thread nD τ).loc main_arg11)) slices_S256x128_S128x128_0_0 :=
  (upd_piece_a (W6 m ρ c)).trans (by rw [at6_arg11 m ρ c])
theorem ub_at7 : W7 m ρ c (Proc.devRef .tc main_v15)
    = extractStridedSlice S128x128 ![128, 0] (m ((c : Thread nD τ).loc main_arg11)) slices_S256x128_S128x128_128_0 :=
  (upd_piece_b (W6 m ρ c)).trans (by rw [at6_arg11 m ρ c])

/-- THE RESULT ARRAY at the last boundary: the node update of the encodings and the sums, its first-layer weights in
    their two pieces. -/
theorem result_at8 : W8 m ρ c (Proc.devRef .tc main_v16)
    = Cert.Spec.nodeUpd (N := 50000) (enc m c) (sums m c)
        (extractStridedSlice S128x128 ![0, 0] (m ((c : Thread nD τ).loc main_arg11)) slices_S256x128_S128x128_0_0)
        (extractStridedSlice S128x128 ![128, 0] (m ((c : Thread nD τ).loc main_arg11)) slices_S256x128_S128x128_128_0)
        (m ((c : Thread nD τ).loc main_arg12)) (m ((c : Thread nD τ).loc main_arg13)) (m ((c : Thread nD τ).loc main_arg14)) := by
  refine (W8_arr m ρ c 7).trans ((upd_arr (V7 m ρ) c).trans ?_)
  show Cert.Spec.nodeUpd (N := 50000) (W7 m ρ c (Proc.devRef .tc main_v0)) (W7 m ρ c (Proc.devRef .tc main_v13)) (W7 m ρ c (Proc.devRef .tc main_v14)) (W7 m ρ c (Proc.devRef .tc main_v15))
    (W7 m ρ c (Proc.devRef .tc main_arg12)) (W7 m ρ c (Proc.devRef .tc main_arg13)) (W7 m ρ c (Proc.devRef .tc main_arg14)) = _
  rw [enc_at7 m ρ c, sum_at7 m ρ c, ua_at7 m ρ c, ub_at7 m ρ c, at7_arg12 m ρ c, at7_arg13 m ρ c, at7_arg14 m ρ c]

end Cert.KGlue

end
-- ==== Proof.Guard.lean ====
/-
  The guarded read of the encodings' rows is the plain indexed read when every node number lies in [0, 50000):
  no number is wrapped, each lies between 0 and 49999, so the guard is one at every edge and the fill is never taken.
-/
import proofs.«426707_j8151847928380_3_alg».proof.Proof.Stretch

set_option maxRecDepth 16384

noncomputable section

namespace Cert.KStretch

open Cert.KernelIdeal Cert.KernelIdeal.Gen Idealize.ShloMosaic Idealize.ShloMosaic.TcCoe Idealize.SL.Sem
open Idealize.ShloMosaic.ValueIdx

/-- With every node number in range, the guard is one at every edge: each edge's wrapped number is the number itself,
    which is at least 0 and at most 49999, and a conjunction of ones is one. -/
theorem takeMask_one (v : IVec S600000 32)
    (hv : ∀ i, IntOp.cmpi .sge (v i) 0#32 = 1#1 ∧ IntOp.cmpi .slt (v i) 50000#32 = 1#1) (e : S600000.Idx) :
    takeMask v e = 1#1 := by
  unfold takeMask
  rw [Host.reduce_eq_foldl]
  refine foldl_andi_ones _ _ (fun n _ => ?_)
  show IntOp.andi (IntOp.cmpi .sge (takeIdx v n) 0#32) (IntOp.cmpi .sle (takeIdx v n) 49999#32) = 1#1
  have hn : takeIdx v n = v (ix1 (n 0)) := by
    rw [takeIdx_eq]
    exact (in_range_facts _ (hv _).1 (hv _).2).1
  rw [hn]
  exact IntOp.andi_eq_one.2 ⟨(hv _).1, (in_range_facts _ (hv _).1 (hv _).2).2⟩

/-- A vector over the edges repeated across the 128 columns reads, at (e, q), its entry e. -/
theorem edge_bcast_apply (m : IVec S600000 1) (j : S600000x128.Idx) :
    broadcastInDim S600000x128 ![0] bcast_S600000_S600000x128_0 m j = m (ix1 (j 0)) := by
  refine broadcastInDim_apply ![0] bcast_S600000_S600000x128_0 m j (ix1 (j 0) : S600000.Idx) (fun a => ?_)
  match a with
  | ⟨0, _⟩ => show (j 0).val = if (600000 : Nat) = 1 then 0 else (j 0).val; rw [if_neg (by decide)]

/-- With every node number in range, the guarded read is the indexed read at the wrapped numbers. -/
theorem takeRows_eq_gather (h : FVec Ideal S50000x128 .f32) (v : IVec S600000 32)
    (hv : ∀ i, IntOp.cmpi .sge (v i) 0#32 = 1#1 ∧ IntOp.cmpi .slt (v i) 50000#32 = 1#1) :
    takeRows h v = Host.gather gather_S50000x128_S600000x1_S600000x128_1_0_n_n_0_1_1128 h (Cert.Spec.col (Cert.Spec.wrap v)) := by
  unfold takeRows
  funext j
  refine (select_apply _ _ _ j).trans ?_
  rw [edge_bcast_apply, takeMask_one v hv, select_one, takeIdx_eq]

end Cert.KStretch

end
-- ==== Proof.Pieces.lean ====
/-
  The pieces of the two first-layer weight matrices, the zero array and the column of node numbers, read at an index.
  A slice of rows [o, o + 128) of a matrix reads, at (a, k), the matrix at (o + a, k); a scalar zero laid over an
  array is zero everywhere; a vector laid as a column reads, at (e, 0), the vector at e.
-/
import proofs.«426707_j8151847928380_3_alg».proof.Proof.Gen.KernelIdeal
import proofs.«426707_j8151847928380_3_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KPieces

open Cert.KernelIdeal Cert.KernelIdeal.Gen Idealize.ShloMosaic Idealize.ShloMosaic.ValueIdx

theorem edge_piece_a (W : FVec Ideal S257x128 .f32) (a k : Fin 128) :
    extractStridedSlice S128x128 ![0, 0] W slices_S257x128_S128x128_0_0 (ix2 a k) = W (ix2 (⟨a.val, by omega⟩ : Fin 257) k) := by
  exact extractStridedSlice_apply ![0, 0] W slices_S257x128_S128x128_0_0 (ix2 a k)
    (ix2 (⟨a.val, by omega⟩ : Fin 257) k : S257x128.Idx) (fun b => by
      match b with
      | ⟨0, _⟩ => show a.val = 0 + a.val; omega
      | ⟨1, _⟩ => show k.val = 0 + k.val; omega)
theorem edge_piece_b (W : FVec Ideal S257x128 .f32) (a k : Fin 128) :
    extractStridedSlice S128x128 ![128, 0] W slices_S257x128_S128x128_128_0 (ix2 a k) = W (ix2 (⟨128 + a.val, by omega⟩ : Fin 257) k) := by
  exact extractStridedSlice_apply ![128, 0] W slices_S257x128_S128x128_128_0 (ix2 a k)
    (ix2 (⟨128 + a.val, by omega⟩ : Fin 257) k : S257x128.Idx) (fun b => by
      match b with
      | ⟨0, _⟩ => rfl
      | ⟨1, _⟩ => show k.val = 0 + k.val; omega)
theorem edge_piece_c (W : FVec Ideal S257x128 .f32) (k : Fin 128) :
    extractStridedSlice S1x128 ![256, 0] W slices_S257x128_S1x128_256_0 (ix2 (0 : Fin 1) k) = W (ix2 (⟨256, by omega⟩ : Fin 257) k) := by
  exact extractStridedSlice_apply ![256, 0] W slices_S257x128_S1x128_256_0 (ix2 (0 : Fin 1) k)
    (ix2 (⟨256, by omega⟩ : Fin 257) k : S257x128.Idx) (fun b => by
      match b with
      | ⟨0, _⟩ => rfl
      | ⟨1, _⟩ => show k.val = 0 + k.val; omega)
theorem upd_piece_a (W : FVec Ideal S256x128 .f32) (a k : Fin 128) :
    extractStridedSlice S128x128 ![0, 0] W slices_S256x128_S128x128_0_0 (ix2 a k) = W (ix2 (⟨a.val, by omega⟩ : Fin 256) k) := by
  exact extractStridedSlice_apply ![0, 0] W slices_S256x128_S128x128_0_0 (ix2 a k)
    (ix2 (⟨a.val, by omega⟩ : Fin 256) k : S256x128.Idx) (fun b => by
      match b with
      | ⟨0, _⟩ => show a.val = 0 + a.val; omega
      | ⟨1, _⟩ => show k.val = 0 + k.val; omega)
theorem upd_piece_b (W : FVec Ideal S256x128 .f32) (a k : Fin 128) :
    extractStridedSlice S128x128 ![128, 0] W slices_S256x128_S128x128_128_0 (ix2 a k) = W (ix2 (⟨128 + a.val, by omega⟩ : Fin 256) k) := by
  exact extractStridedSlice_apply ![128, 0] W slices_S256x128_S128x128_128_0 (ix2 a k)
    (ix2 (⟨128 + a.val, by omega⟩ : Fin 256) k : S256x128.Idx) (fun b => by
      match b with
      | ⟨0, _⟩ => rfl
      | ⟨1, _⟩ => show k.val = 0 + k.val; omega)

/-- The zero array the messages are summed into. -/
theorem zeros_eq :
    broadcastInDim S50000x128 ![] bcast_S_S50000x128 (constant (F := Ideal) S_ .f32 0x00000000#32) = fun _ => (0 : EReal) := by
  funext j
  refine (broadcastInDim_apply ![] bcast_S_S50000x128 (constant (F := Ideal) S_ .f32 0x00000000#32) j (ix0 : S_.Idx)
    (fun a => a.elim0)).trans ?_
  rw [constant_apply, Ideal.ofBits_zero_f32]

/-- A vector of node numbers laid as a column. -/
theorem col_eq (v : IVec S600000 32) :
    broadcastInDim S600000x1 ![0] bcast_S600000_S600000x1_0 v = Cert.Spec.col v := by
  funext i
  refine (broadcastInDim_apply ![0] bcast_S600000_S600000x1_0 v i (ix1 (i 0) : S600000.Idx) (fun a => ?_)).trans ?_
  · match a with
    | ⟨0, _⟩ =>
      show (i 0).val = if (600000 : Nat) = 1 then 0 else (i 0).val
      rw [if_neg (by decide)]
  · rfl

end Cert.KPieces

end
-- ==== Proof.Final.lean ====
/-
  Under the hypothesis that every entry of the edge list is a node number in [0, 50000), the program's result array is
  one round of message passing of its argument arrays (`Cert.Spec.G`):
    * the guarded reads of the encodings' rows are plain indexed reads (no number is out of range, so no row is
      replaced by the fill);
    * the three pieces of the edge perceptron's first-layer weights are rows [0, 128), [128, 256) and row 256 of the
      whole matrix, so the split perceptron is the whole one; likewise the two pieces of the node update's;
    * the zero array and the column of target nodes are what the specification's indexed sum takes.
-/
import proofs.«426707_j8151847928380_3_alg».proof.Proof.Glue
import proofs.«426707_j8151847928380_3_alg».proof.Proof.Guard
import proofs.«426707_j8151847928380_3_alg».proof.Proof.Pieces

set_option maxRecDepth 16384

noncomputable section

namespace Cert.KGlue

open Cert.KernelIdeal Cert.KernelIdeal.Gen Idealize.ShloMosaic Idealize.ShloMosaic.TcCoe Idealize.SL.Sem
open Idealize.ShloMosaic.ValueIdx Cert.KStretch

variable (m : (ℓ : Loc nD τ sig) → Buf (Elt Ideal) ℓ) (ρ : Dev nD → PrngReg) (c : Dev nD)

/-- The messages, with the endpoints read plainly and the first-layer weights whole. -/
theorem msgs_eq
    (hr : ∀ j : S2x600000.Idx, IntOp.cmpi .sge (((m ((c : Thread nD τ).loc main_arg1)) : IVec S2x600000 32) j) 0#32 = 1#1
      ∧ IntOp.cmpi .slt (((m ((c : Thread nD τ).loc main_arg1)) : IVec S2x600000 32) j) 50000#32 = 1#1) :
    msgs m c = Cert.Spec.edgeMlpW (N := 600000)
      (Host.gather gather_S50000x128_S600000x1_S600000x128_1_0_n_n_0_1_1128 (enc m c) (Cert.Spec.col (Cert.Spec.wrap (Cert.Spec.endsOf (m ((c : Thread nD τ).loc main_arg1)) 0))))
      (Host.gather gather_S50000x128_S600000x1_S600000x128_1_0_n_n_0_1_1128 (enc m c) (Cert.Spec.col (Cert.Spec.wrap (Cert.Spec.endsOf (m ((c : Thread nD τ).loc main_arg1)) 1))))
      (m ((c : Thread nD τ).loc main_arg2)) (m ((c : Thread nD τ).loc main_arg7)) (m ((c : Thread nD τ).loc main_arg8)) (m ((c : Thread nD τ).loc main_arg9)) (m ((c : Thread nD τ).loc main_arg10)) := by
  show Cert.Spec.edgeMlp (N := 600000) (takeRows (enc m c) (Cert.Spec.endsOf (m ((c : Thread nD τ).loc main_arg1)) 0)) (takeRows (enc m c) (Cert.Spec.endsOf (m ((c : Thread nD τ).loc main_arg1)) 1)) (m ((c : Thread nD τ).loc main_arg2))
    (extractStridedSlice S128x128 ![0, 0] (m ((c : Thread nD τ).loc main_arg7)) slices_S257x128_S128x128_0_0)
    (extractStridedSlice S128x128 ![128, 0] (m ((c : Thread nD τ).loc main_arg7)) slices_S257x128_S128x128_128_0)
    (extractStridedSlice S1x128 ![256, 0] (m ((c : Thread nD τ).loc main_arg7)) slices_S257x128_S1x128_256_0)
    (m ((c : Thread nD τ).loc main_arg8)) (m ((c : Thread nD τ).loc main_arg9)) (m ((c : Thread nD τ).loc main_arg10)) = _
  rw [Cert.Spec.edgeMlp_eq_W _ _ _ _ _ _ (m ((c : Thread nD τ).loc main_arg7)) _ _ _
      (fun a k => Cert.KPieces.edge_piece_a _ a k) (fun a k => Cert.KPieces.edge_piece_b _ a k) (fun k => Cert.KPieces.edge_piece_c _ k),
    takeRows_eq_gather (enc m c) (Cert.Spec.endsOf (m ((c : Thread nD τ).loc main_arg1)) 0) (fun i => hr (ix2 (0 : Fin 2) (i 0))),
    takeRows_eq_gather (enc m c) (Cert.Spec.endsOf (m ((c : Thread nD τ).loc main_arg1)) 1) (fun i => hr (ix2 (1 : Fin 2) (i 0)))]

/-- THE PROGRAM'S RESULT is one round of message passing of the argument arrays. -/
theorem value_eq_G
    (hr : ∀ j : S2x600000.Idx, IntOp.cmpi .sge (((m ((c : Thread nD τ).loc main_arg1)) : IVec S2x600000 32) j) 0#32 = 1#1
      ∧ IntOp.cmpi .slt (((m ((c : Thread nD τ).loc main_arg1)) : IVec S2x600000 32) j) 50000#32 = 1#1) :
    W8 m ρ c (Proc.devRef .tc main_v16) = Cert.Spec.G gather_S50000x128_S600000x1_S600000x128_1_0_n_n_0_1_1128 scatter_S50000x128_S600000x1_S600000x128_1_0_0_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [result_at8 m ρ c,
    Cert.Spec.nodeUpd_eq_W _ _ _ _ (m ((c : Thread nD τ).loc main_arg11)) _ _ _
      (fun a k => Cert.KPieces.upd_piece_a _ a k) (fun a k => Cert.KPieces.upd_piece_b _ a k)]
  have hs : sums m c = Host.scatterAdd (F := Ideal) scatter_S50000x128_S600000x1_S600000x128_1_0_0_1 (fun _ => (0 : EReal)) (Cert.Spec.col (Cert.Spec.endsOf (m ((c : Thread nD τ).loc main_arg1)) 1))
      (Cert.Spec.edgeMlpW (N := 600000)
        (Host.gather gather_S50000x128_S600000x1_S600000x128_1_0_n_n_0_1_1128 (enc m c) (Cert.Spec.col (Cert.Spec.wrap (Cert.Spec.endsOf (m ((c : Thread nD τ).loc main_arg1)) 0))))
        (Host.gather gather_S50000x128_S600000x1_S600000x128_1_0_n_n_0_1_1128 (enc m c) (Cert.Spec.col (Cert.Spec.wrap (Cert.Spec.endsOf (m ((c : Thread nD τ).loc main_arg1)) 1))))
        (m ((c : Thread nD τ).loc main_arg2)) (m ((c : Thread nD τ).loc main_arg7)) (m ((c : Thread nD τ).loc main_arg8)) (m ((c : Thread nD τ).loc main_arg9)) (m ((c : Thread nD τ).loc main_arg10))) := by
    show Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 (Cert.Spec.endsOf (m ((c : Thread nD τ).loc main_arg1)) 1)) (msgs m c) = _
    rw [Cert.KPieces.zeros_eq, Cert.KPieces.col_eq, msgs_eq m c hr]
  rw [hs]
  rfl

end Cert.KGlue

end
-- ==== Proof.RefValue.lean ====
import proofs.«426707_j8151847928380_3_alg».proof.Proof.Gen.ReferenceIdeal.Run
import proofs.«426707_j8151847928380_3_alg».proof.Proof.Gen.ReferenceIdeal.Read
import proofs.«426707_j8151847928380_3_alg».proof.Proof.Spec
import proofs.«426707_j8151847928380_3_alg».proof.Proof.LibDot

set_option maxRecDepth 16384

noncomputable section

open scoped BigOperators

namespace Cert.RefValue

open Cert.ReferenceIdeal Cert.ReferenceIdeal.Gen Idealize.ShloMosaic Idealize.ShloMosaic.TcCoe Idealize.SL.Sem
open Idealize.ShloMosaic.ValueIdx

/-! ## Reading the operations at an index

Each perceptron is two layers. A layer's entry at (n, j) is a sum over the contracted axis plus a bias entry; the
first layer of the edge and update perceptrons contracts over a row joined from two or three arrays, and its sum
splits at the seams into one sum per piece. Everything is stated for any number of rows. -/

/-- A sum over 257 terms is the sum of its first 128, its next 128 and its last. -/
theorem sum_split257 (f : Fin 257 → EReal) :
    ∑ κ : Fin 257, f κ
      = (∑ a : Fin 128, f ⟨a.val, by omega⟩) + (∑ a : Fin 128, f ⟨128 + a.val, by omega⟩) + f ⟨256, by omega⟩ := by
  have h1 := Fin.sum_univ_castSucc (n := 256) f
  have h2 := Fin.sum_univ_add (a := 128) (b := 128) (fun i : Fin (128 + 128) => f (Fin.castSucc i))
  rw [h1, h2]
  rfl

/-- A sum over 256 terms is the sum of its first 128 and its next 128. -/
theorem sum_split256 (f : Fin 256 → EReal) :
    ∑ κ : Fin 256, f κ = (∑ a : Fin 128, f ⟨a.val, by omega⟩) + (∑ a : Fin 128, f ⟨128 + a.val, by omega⟩) := by
  have h2 := Fin.sum_univ_add (a := 128) (b := 128) f
  rw [h2]
  rfl

/-- A vector laid along the second axis of an N × O rectangle reads, at (n, j), its entry j. -/
theorem bias_read {α : Type} {N O : Nat} (b1 : (⟨1, ![O]⟩ : Shape).BroadcastsInDim ⟨2, ![1, O]⟩ ![1])
    (b2 : (⟨2, ![1, O]⟩ : Shape).BroadcastsInDim ⟨2, ![N, O]⟩ ![0, 1]) (v : (⟨1, ![O]⟩ : Shape).Idx → α)
    (n : Fin N) (j : Fin O) :
    broadcastInDim ⟨2, ![N, O]⟩ ![0, 1] b2 (broadcastInDim ⟨2, ![1, O]⟩ ![1] b1 v) (ix2 n j) = v (ix1 j) := by
  rw [broadcastInDim_apply _ b2 _ (ix2 n j) (ix2 (0 : Fin 1) j) (fun a => match a with
      | ⟨0, _⟩ => by show 0 = if (1 : Nat) = 1 then 0 else n.val; rw [if_pos rfl]
      | ⟨1, _⟩ => by show j.val = if O = 1 then 0 else j.val; have := j.isLt; split <;> omega),
    broadcastInDim_apply _ b1 v (ix2 (0 : Fin 1) j) (ix1 j) (fun a => match a with
      | ⟨0, _⟩ => by show j.val = if O = 1 then 0 else j.val; have := j.isLt; split <;> omega)]

/-- The zero word spread over any shape reads 0 everywhere. -/
theorem zero_read {t : Shape} (bz : (⟨0, ![]⟩ : Shape).BroadcastsInDim t ![]) (i : t.Idx) :
    broadcastInDim t ![] bz (constant (F := Ideal) ⟨0, ![]⟩ .f32 0x00000000#32) i = (0 : EReal) := by
  rw [broadcastInDim_apply _ bz _ i (fun a => a.elim0) (fun a => a.elim0), constant_apply, Ideal.ofBits_zero_f32]

/-- The second layer at (n, j): rectify the pre-activation row, multiply by W₂, add the bias. -/
theorem layer2_read {N H O : Nat} (d : DotDims ⟨2, ![N, H]⟩ ⟨2, ![H, O]⟩ ⟨2, ![N, O]⟩)
    (hlc : d.lhsContracting = [1]) (hrc : d.rhsContracting = [0]) (hln : d.lhsNonContracting = [0])
    (hrn : d.rhsNonContracting = [1]) (hlb : d.lhsBatch = []) (hrb : d.rhsBatch = [])
    (bz : (⟨0, ![]⟩ : Shape).BroadcastsInDim ⟨2, ![N, H]⟩ ![])
    (b1 : (⟨1, ![O]⟩ : Shape).BroadcastsInDim ⟨2, ![1, O]⟩ ![1])
    (b2 : (⟨2, ![1, O]⟩ : Shape).BroadcastsInDim ⟨2, ![N, O]⟩ ![0, 1])
    (pre : Cert.Spec.Mat N H) (W2 : Cert.Spec.Mat H O) (bias : Cert.Spec.Row O) (n : Fin N) (j : Fin O) :
    addf (Host.dotGeneral (F := Ideal) d none
        (maximumf pre (broadcastInDim ⟨2, ![N, H]⟩ ![] bz (constant (F := Ideal) ⟨0, ![]⟩ .f32 0x00000000#32))) W2)
      (broadcastInDim ⟨2, ![N, O]⟩ ![0, 1] b2 (broadcastInDim ⟨2, ![1, O]⟩ ![1] b1 bias)) (ix2 n j)
      = Cert.Spec.out2 (fun k => pre (ix2 n k)) W2 bias j := by
  rw [addf_apply, Cert.LibDot.dot_rows_apply d hlc hrc hln hrn hlb hrb, bias_read]
  unfold Cert.Spec.out2
  refine congrArg (· + bias (ix1 j)) (Finset.sum_congr rfl fun k _ => ?_)
  rw [maximumf_apply, zero_read]

/-- A node's first layer at (n, k). -/
theorem node_pre_read {N : Nat} (d : DotDims ⟨2, ![N, 9]⟩ ⟨2, ![9, 128]⟩ ⟨2, ![N, 128]⟩)
    (hlc : d.lhsContracting = [1]) (hrc : d.rhsContracting = [0]) (hln : d.lhsNonContracting = [0])
    (hrn : d.rhsNonContracting = [1]) (hlb : d.lhsBatch = []) (hrb : d.rhsBatch = [])
    (b1 : (⟨1, ![128]⟩ : Shape).BroadcastsInDim ⟨2, ![1, 128]⟩ ![1])
    (b2 : (⟨2, ![1, 128]⟩ : Shape).BroadcastsInDim ⟨2, ![N, 128]⟩ ![0, 1])
    (x : Cert.Spec.Mat N 9) (W1 : Cert.Spec.Mat 9 128) (bias : Cert.Spec.Row 128) (n : Fin N) (k : Fin 128) :
    addf (Host.dotGeneral (F := Ideal) d none x W1)
      (broadcastInDim ⟨2, ![N, 128]⟩ ![0, 1] b2 (broadcastInDim ⟨2, ![1, 128]⟩ ![1] b1 bias)) (ix2 n k)
      = Cert.Spec.nodePre x W1 bias n k := by
  rw [addf_apply, Cert.LibDot.dot_rows_apply d hlc hrc hln hrn hlb hrb, bias_read]
  rfl

section Edge
variable {N : Nat}
  (hc : Shape.Concatenates [(⟨2, ![N, 128]⟩ : Shape), ⟨2, ![N, 128]⟩, ⟨2, ![N, 1]⟩] ⟨2, ![N, 257]⟩ 1)
  (r c : Cert.Spec.Mat N 128) (w : Cert.Spec.Mat N 1)

/-- The joined row (r | c | w) at a column below 128 is r's entry. -/
theorem cat3_read0 (n : Fin N) (a : Fin 128) (h : a.val < 257) :
    concatenate (⟨2, ![N, 257]⟩ : Shape) 1 [⟨⟨2, ![N, 128]⟩, r⟩, ⟨⟨2, ![N, 128]⟩, c⟩, ⟨⟨2, ![N, 1]⟩, w⟩] hc (ix2 n ⟨a.val, h⟩)
      = r (ix2 n a) :=
  concatenate_apply_piece 1 [⟨⟨2, ![N, 128]⟩, r⟩, ⟨⟨2, ![N, 128]⟩, c⟩, ⟨⟨2, ![N, 1]⟩, w⟩] hc (ix2 n ⟨a.val, h⟩) 0 (by show 0 < 3; omega) _ r rfl rfl 0 rfl (ix2 n a)
    (fun b hb => match b with
      | ⟨0, _⟩ => rfl
      | ⟨1, _⟩ => absurd rfl hb)
    (by show 0 + a.val = a.val; omega)

/-- The joined row at a column 128 + a is c's entry a. -/
theorem cat3_read1 (n : Fin N) (a : Fin 128) (h : 128 + a.val < 257) :
    concatenate (⟨2, ![N, 257]⟩ : Shape) 1 [⟨⟨2, ![N, 128]⟩, r⟩, ⟨⟨2, ![N, 128]⟩, c⟩, ⟨⟨2, ![N, 1]⟩, w⟩] hc (ix2 n ⟨128 + a.val, h⟩)
      = c (ix2 n a) :=
  concatenate_apply_piece 1 [⟨⟨2, ![N, 128]⟩, r⟩, ⟨⟨2, ![N, 128]⟩, c⟩, ⟨⟨2, ![N, 1]⟩, w⟩] hc (ix2 n ⟨128 + a.val, h⟩) 1 (by show 1 < 3; omega) _ c rfl rfl 128 rfl (ix2 n a)
    (fun b hb => match b with
      | ⟨0, _⟩ => rfl
      | ⟨1, _⟩ => absurd rfl hb)
    rfl

/-- The joined row at column 256 is w's one entry. -/
theorem cat3_read2 (n : Fin N) (h : 256 < 257) :
    concatenate (⟨2, ![N, 257]⟩ : Shape) 1 [⟨⟨2, ![N, 128]⟩, r⟩, ⟨⟨2, ![N, 128]⟩, c⟩, ⟨⟨2, ![N, 1]⟩, w⟩] hc (ix2 n ⟨256, h⟩)
      = w (ix2 n 0) :=
  concatenate_apply_piece 1 [⟨⟨2, ![N, 128]⟩, r⟩, ⟨⟨2, ![N, 128]⟩, c⟩, ⟨⟨2, ![N, 1]⟩, w⟩] hc (ix2 n ⟨256, h⟩) 2 (by show 2 < 3; omega) _ w rfl rfl 256 rfl (ix2 n 0)
    (fun b hb => match b with
      | ⟨0, _⟩ => rfl
      | ⟨1, _⟩ => absurd rfl hb)
    rfl

/-- An edge's first layer at (n, k): the product of the joined row with W₁, split at the two seams. -/
theorem edge_pre_read (d : DotDims ⟨2, ![N, 257]⟩ ⟨2, ![257, 128]⟩ ⟨2, ![N, 128]⟩)
    (hlc : d.lhsContracting = [1]) (hrc : d.rhsContracting = [0]) (hln : d.lhsNonContracting = [0])
    (hrn : d.rhsNonContracting = [1]) (hlb : d.lhsBatch = []) (hrb : d.rhsBatch = [])
    (b1 : (⟨1, ![128]⟩ : Shape).BroadcastsInDim ⟨2, ![1, 128]⟩ ![1])
    (b2 : (⟨2, ![1, 128]⟩ : Shape).BroadcastsInDim ⟨2, ![N, 128]⟩ ![0, 1])
    (W1 : Cert.Spec.Mat 257 128) (bias : Cert.Spec.Row 128) (n : Fin N) (k : Fin 128) :
    addf (Host.dotGeneral (F := Ideal) d none
        (concatenate (⟨2, ![N, 257]⟩ : Shape) 1 [⟨⟨2, ![N, 128]⟩, r⟩, ⟨⟨2, ![N, 128]⟩, c⟩, ⟨⟨2, ![N, 1]⟩, w⟩] hc) W1)
      (broadcastInDim ⟨2, ![N, 128]⟩ ![0, 1] b2 (broadcastInDim ⟨2, ![1, 128]⟩ ![1] b1 bias)) (ix2 n k)
      = Cert.Spec.edgePreW r c w W1 bias n k := by
  rw [addf_apply, Cert.LibDot.dot_rows_apply d hlc hrc hln hrn hlb hrb, bias_read, sum_split257]
  simp only [cat3_read0, cat3_read1, cat3_read2]
  rfl

end Edge

section Upd
variable {N : Nat}
  (hc : Shape.Concatenates [(⟨2, ![N, 128]⟩ : Shape), ⟨2, ![N, 128]⟩] ⟨2, ![N, 256]⟩ 1)
  (h s : Cert.Spec.Mat N 128)

/-- The joined row (h | s) at a column below 128 is h's entry. -/
theorem cat2_read0 (n : Fin N) (a : Fin 128) (hh : a.val < 256) :
    concatenate (⟨2, ![N, 256]⟩ : Shape) 1 [⟨⟨2, ![N, 128]⟩, h⟩, ⟨⟨2, ![N, 128]⟩, s⟩] hc (ix2 n ⟨a.val, hh⟩) = h (ix2 n a) :=
  concatenate_pair_apply_left 1 h s hc (ix2 n ⟨a.val, hh⟩) rfl (ix2 n a)
    (fun b => match b with
      | ⟨0, _⟩ => rfl
      | ⟨1, _⟩ => rfl)

/-- The joined row at a column 128 + a is s's entry a. -/
theorem cat2_read1 (n : Fin N) (a : Fin 128) (hh : 128 + a.val < 256) :
    concatenate (⟨2, ![N, 256]⟩ : Shape) 1 [⟨⟨2, ![N, 128]⟩, h⟩, ⟨⟨2, ![N, 128]⟩, s⟩] hc (ix2 n ⟨128 + a.val, hh⟩) = s (ix2 n a) :=
  concatenate_pair_apply_right 1 h s hc (ix2 n ⟨128 + a.val, hh⟩) rfl rfl (ix2 n a)
    (fun b hb => match b with
      | ⟨0, _⟩ => rfl
      | ⟨1, _⟩ => absurd rfl hb)
    (by show a.val + 128 = 128 + a.val; omega)

/-- A node's update first layer at (n, k): the product of the joined row with W₁, split at the seam. -/
theorem upd_pre_read (d : DotDims ⟨2, ![N, 256]⟩ ⟨2, ![256, 128]⟩ ⟨2, ![N, 128]⟩)
    (hlc : d.lhsContracting = [1]) (hrc : d.rhsContracting = [0]) (hln : d.lhsNonContracting = [0])
    (hrn : d.rhsNonContracting = [1]) (hlb : d.lhsBatch = []) (hrb : d.rhsBatch = [])
    (b1 : (⟨1, ![128]⟩ : Shape).BroadcastsInDim ⟨2, ![1, 128]⟩ ![1])
    (b2 : (⟨2, ![1, 128]⟩ : Shape).BroadcastsInDim ⟨2, ![N, 128]⟩ ![0, 1])
    (W1 : Cert.Spec.Mat 256 128) (bias : Cert.Spec.Row 128) (n : Fin N) (k : Fin 128) :
    addf (Host.dotGeneral (F := Ideal) d none
        (concatenate (⟨2, ![N, 256]⟩ : Shape) 1 [⟨⟨2, ![N, 128]⟩, h⟩, ⟨⟨2, ![N, 128]⟩, s⟩] hc) W1)
      (broadcastInDim ⟨2, ![N, 128]⟩ ![0, 1] b2 (broadcastInDim ⟨2, ![1, 128]⟩ ![1] b1 bias)) (ix2 n k)
      = Cert.Spec.updPreW h s W1 bias n k := by
  rw [addf_apply, Cert.LibDot.dot_rows_apply d hlc hrc hln hrn hlb hrb, bias_read, sum_split256]
  simp only [cat2_read0, cat2_read1]
  rfl

end Upd

/-! ## The stages as arrays -/

/-- The node encoder's stages are the specification's node encoder. -/
theorem enc_eq (x0 : Cert.Spec.Mat 50000 9) (x3 : Cert.Spec.Mat 9 128) (x4 : Cert.Spec.Row 128) (x5 : Cert.Spec.Mat 128 128) (x6 : Cert.Spec.Row 128) :
    Read.val_main_v8 (F := Ideal) x0 x3 x4 x5 x6 = Cert.Spec.nodeEnc (N := 50000) x0 x3 x4 x5 x6 := by
  funext i
  obtain ⟨n, j, rfl⟩ : ∃ (n : Fin 50000) (j : Fin 128), i = ix2 n j := ⟨i 0, i 1, eq_ix2 i⟩
  unfold Read.val_main_v8 Read.val_main_v7 Read.val_main_v6 Read.val_main_v5 Read.val_main_v4 Read.val_main_call0_v0
    Read.val_main_call0_cst Read.val_main_v3 Read.val_main_v2 Read.val_main_v1 Read.val_main_v0
  refine (layer2_read dot_S50000x128_S128x128_S50000x128_1_0_0_1_n_n rfl rfl rfl rfl rfl rfl _ _ _ _ x5 x6 n j).trans ?_
  refine congrArg (fun p => Cert.Spec.out2 p x5 x6 j) (funext fun k => ?_)
  exact node_pre_read dot_S50000x9_S9x128_S50000x128_1_0_0_1_n_n rfl rfl rfl rfl rfl rfl _ _ x0 x3 x4 n k

/-- Row 0 of the edge list, read through the slice and the reshape. -/
theorem idx_row0 (i : S600000x1.Idx) :
    Read.idx_main_v9 (Read.idx_main_v10 (Read.idx_main_v18 i)) = ix2 (0 : Fin 2) (i 0) :=
  funext fun a => Fin.ext (by
    match a with
    | ⟨0, _⟩ => rfl
    | ⟨1, _⟩ => exact Nat.mod_eq_of_lt (i 0).isLt)

/-- Row 1 of the edge list, read through the slice and the reshape. -/
theorem idx_row1 (i : S600000x1.Idx) :
    Read.idx_main_v11 (Read.idx_main_v12 (Read.idx_main_v25 i)) = ix2 (1 : Fin 2) (i 0) :=
  funext fun a => Fin.ext (by
    match a with
    | ⟨0, _⟩ => rfl
    | ⟨1, _⟩ => exact Nat.mod_eq_of_lt (i 0).isLt)

/-- The source column: row 0 of the edge list, negative entries counted from the end. -/
theorem src_eq (x1 : Cert.Spec.Edges) :
    Read.val_main_v18 (F := Ideal) x1 = Cert.Spec.col (Cert.Spec.wrap (Cert.Spec.endsOf x1 0)) := by
  funext i
  rw [Read.val_main_v18_apply, Read.val_main_v17_apply, Read.val_main_v14_apply, Read.val_main_v16_apply,
    Read.val_main_v10_apply, Read.val_main_v9_apply, Read.val_main_v13_apply, Read.val_main_c_apply,
    Read.val_main_v15_apply, Read.val_main_c_0_apply, idx_row0]
  rfl

/-- The target column for the indexed read: row 1 of the edge list, negative entries counted from the end. -/
theorem dst_eq (x1 : Cert.Spec.Edges) :
    Read.val_main_v25 (F := Ideal) x1 = Cert.Spec.col (Cert.Spec.wrap (Cert.Spec.endsOf x1 1)) := by
  funext i
  rw [Read.val_main_v25_apply, Read.val_main_v24_apply, Read.val_main_v21_apply, Read.val_main_v23_apply,
    Read.val_main_v12_apply, Read.val_main_v11_apply, Read.val_main_v20_apply, Read.val_main_c_1_apply,
    Read.val_main_v22_apply, Read.val_main_c_2_apply, idx_row1]
  rfl

/-- The target column for the indexed sum: row 1 of the edge list as it stands. -/
theorem tgt_eq (x1 : Cert.Spec.Edges) :
    Read.val_main_v38 (F := Ideal) x1 = Cert.Spec.col (Cert.Spec.endsOf x1 1) := by
  funext i
  rw [Read.val_main_v38_apply, Read.val_main_v12_apply, Read.val_main_v11_apply]
  exact congrArg x1 (funext fun a => Fin.ext (by
    match a with
    | ⟨0, _⟩ => rfl
    | ⟨1, _⟩ => exact Nat.mod_eq_of_lt (i 0).isLt))

/-- The array the messages are summed into is zero. -/
theorem zeros_eq : Read.val_main_v37 (F := Ideal) = fun _ => (0 : EReal) := by
  funext i
  rw [Read.val_main_v37_apply, Read.val_main_cst_apply]
  exact Ideal.ofBits_zero_f32

/-- The edge stages on any two arrays of endpoint encodings are the specification's edge perceptron. -/
theorem edge_eq (r c : Cert.Spec.Mat 600000 128) (x2 : Cert.Spec.Mat 600000 1) (x7 : Cert.Spec.Mat 257 128) (x8 : Cert.Spec.Row 128)
    (x9 : Cert.Spec.Mat 128 128) (x10 : Cert.Spec.Row 128) :
    addf (Host.dotGeneral (F := Ideal) dot_S600000x128_S128x128_S600000x128_1_0_0_1_n_n none (maximumf (addf (Host.dotGeneral dot_S600000x257_S257x128_S600000x128_1_0_0_1_n_n none (concatenate S600000x257 1 [⟨S600000x128, r⟩, ⟨S600000x128, c⟩, ⟨S600000x1, x2⟩] concatenates_S600000x128_S600000x128_S600000x1_S600000x257_d1 : FVec Ideal S600000x257 .f32) x7) (broadcastInDim S600000x128 ![0, 1] bcast_S1x128_S600000x128_0_1 (broadcastInDim S1x128 ![1] bcast_S128_S1x128_1 x8))) (broadcastInDim S600000x128 ![] bcast_S_S600000x128 (constant S_ .f32 0x00000000#32))) x9) (broadcastInDim S600000x128 ![0, 1] bcast_S1x128_S600000x128_0_1 (broadcastInDim S1x128 ![1] bcast_S128_S1x128_1 x10))
      = Cert.Spec.edgeMlpW (N := 600000) r c x2 x7 x8 x9 x10 := by
  funext i
  obtain ⟨n, j, rfl⟩ : ∃ (n : Fin 600000) (j : Fin 128), i = ix2 n j := ⟨i 0, i 1, eq_ix2 i⟩
  refine (layer2_read dot_S600000x128_S128x128_S600000x128_1_0_0_1_n_n rfl rfl rfl rfl rfl rfl _ _ _ _ x9 x10 n j).trans ?_
  refine congrArg (fun p => Cert.Spec.out2 p x9 x10 j) (funext fun k => ?_)
  exact edge_pre_read concatenates_S600000x128_S600000x128_S600000x1_S600000x257_d1 r c x2
    dot_S600000x257_S257x128_S600000x128_1_0_0_1_n_n rfl rfl rfl rfl rfl rfl _ _ x7 x8 n k

/-- The update stages on any encodings and any summed messages are the specification's node update. -/
theorem upd_eq (h s : Cert.Spec.Mat 50000 128) (x11 : Cert.Spec.Mat 256 128) (x12 : Cert.Spec.Row 128) (x13 : Cert.Spec.Mat 128 6) (x14 : Cert.Spec.Row 6) :
    addf (Host.dotGeneral (F := Ideal) dot_S50000x128_S128x6_S50000x6_1_0_0_1_n_n none (maximumf (addf (Host.dotGeneral dot_S50000x256_S256x128_S50000x128_1_0_0_1_n_n none (concatenate S50000x256 1 [⟨S50000x128, h⟩, ⟨S50000x128, s⟩] concatenates_S50000x128_S50000x128_S50000x256_d1 : FVec Ideal S50000x256 .f32) x11) (broadcastInDim S50000x128 ![0, 1] bcast_S1x128_S50000x128_0_1 (broadcastInDim S1x128 ![1] bcast_S128_S1x128_1 x12))) (broadcastInDim S50000x128 ![] bcast_S_S50000x128 (constant S_ .f32 0x00000000#32))) x13) (broadcastInDim S50000x6 ![0, 1] bcast_S1x6_S50000x6_0_1 (broadcastInDim S1x6 ![1] bcast_S6_S1x6_1 x14))
      = Cert.Spec.nodeUpdW (N := 50000) h s x11 x12 x13 x14 := by
  funext i
  obtain ⟨n, j, rfl⟩ : ∃ (n : Fin 50000) (j : Fin 6), i = ix2 n j := ⟨i 0, i 1, eq_ix2 i⟩
  refine (layer2_read dot_S50000x128_S128x6_S50000x6_1_0_0_1_n_n rfl rfl rfl rfl rfl rfl _ _ _ _ x13 x14 n j).trans ?_
  refine congrArg (fun p => Cert.Spec.out2 p x13 x14 j) (funext fun k => ?_)
  exact upd_pre_read concatenates_S50000x128_S50000x128_S50000x256_d1 h s
    dot_S50000x256_S256x128_S50000x128_1_0_0_1_n_n rfl rfl rfl rfl rfl rfl _ _ x11 x12 n k

/-! ## The whole round -/

/-- The last stage, as a function of the fifteen arguments, is one round of message passing: the update of the
    encodings and of the messages summed at the target column, the messages being the edge perceptron on the
    encodings read at the two wrapped columns. The indexed read and the indexed sum stay as they are: both sides
    apply the same two functions to equal operands. -/
theorem main_eq (x0 : Cert.Spec.Mat 50000 9) (x1 : Cert.Spec.Edges) (x2 : Cert.Spec.Mat 600000 1)
    (x3 : Cert.Spec.Mat 9 128) (x4 : Cert.Spec.Row 128) (x5 : Cert.Spec.Mat 128 128) (x6 : Cert.Spec.Row 128)
    (x7 : Cert.Spec.Mat 257 128) (x8 : Cert.Spec.Row 128) (x9 : Cert.Spec.Mat 128 128) (x10 : Cert.Spec.Row 128)
    (x11 : Cert.Spec.Mat 256 128) (x12 : Cert.Spec.Row 128) (x13 : Cert.Spec.Mat 128 6) (x14 : Cert.Spec.Row 6) :
    Read.val_main_v49 (F := Ideal) x0 x1 x2 x3 x4 x5 x6 x7 x8 x9 x10 x11 x12 x13 x14
      = Cert.Spec.G gather_S50000x128_S600000x1_S600000x128_1_0_n_n_0_1_1128 scatter_S50000x128_S600000x1_S600000x128_1_0_0_1
          x0 x1 x2 x3 x4 x5 x6 x7 x8 x9 x10 x11 x12 x13 x14 := by
  unfold Read.val_main_v49 Read.val_main_v48 Read.val_main_v47 Read.val_main_v46 Read.val_main_v45 Read.val_main_call2_v0
    Read.val_main_call2_cst Read.val_main_v44 Read.val_main_v43 Read.val_main_v42 Read.val_main_v41 Read.val_main_v40
  rw [upd_eq]
  unfold Read.val_main_v39
  rw [zeros_eq, tgt_eq]
  unfold Read.val_main_v36 Read.val_main_v35 Read.val_main_v34 Read.val_main_v33 Read.val_main_v32 Read.val_main_call1_v0
    Read.val_main_call1_cst Read.val_main_v31 Read.val_main_v30 Read.val_main_v29 Read.val_main_v28 Read.val_main_v27
  rw [edge_eq]
  unfold Read.val_main_v19 Read.val_main_v26
  rw [src_eq, dst_eq, enc_eq]
  rfl

/-- The reference's result term is one round of message passing of the argument arrays. -/
theorem result_eq (m : (ℓ : Loc nD τ sig) → Buf (Elt Ideal) ℓ) (c : Dev nD) :
    Cert.ReferenceIdeal.Value.res_out0 (F := Ideal) m c
      = Cert.Spec.G gather_S50000x128_S600000x1_S600000x128_1_0_n_n_0_1_1128 scatter_S50000x128_S600000x1_S600000x128_1_0_0_1
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) :=
  (Read.val_main_v49_eq (F := Ideal) m c).trans (main_eq _ _ _ _ _ _ _ _ _ _ _ _ _ _ _)

end Cert.RefValue

end
-- ==== Proof.PreRange.lean ====
/-
  What the precondition says of the edge list: every entry, read as a signed word, is at least 0 and below 50000.
  The precondition is a conjunction ending in "all entries e satisfy 0 ≤ e and e < 50000": an and-reduction over the
  whole [2, E] array of the entrywise conjunction of the two comparisons, which is one only if every entry's is.
-/
import proofs.«426707_j8151847928380_3_alg».proof.Defs
import Idealize.ShloMosaic.Lib.ReduceAll
import Idealize.ShloMosaic.Lib.Affine
import Idealize.ShloMosaic.Lib.ValueIdx
import Idealize.ShloMosaic.PureOps.Ideal

set_option maxRecDepth 16384

noncomputable section

namespace Cert.PreRange

open Idealize.ShloMosaic Idealize.SL.Sem

/-- THE LAST CONJUNCT. The chain's last part ends in the conjunction of what came before with the and-reduction, over
    the whole edge list, of (0 ≤ e) ∧ (e < 50000) entry by entry; where the part is one, the reduction is one, so every
    entry's conjunction is one, so each of an entry's two comparisons is. -/
theorem last_part_one {F : FTy → Type} [FloatOps F] [Cert.Pre_finite_inputs.Facts]
    (e : IVec Cert.Pre_finite_inputs.S2x600000 32) (u v : IVec Cert.Pre_finite_inputs.S_ 1) (i : Cert.Pre_finite_inputs.S_.Idx)
    (h : Cert.Pre_finite_inputs.fn_part4 (F := F) e u v i = 1#1) (j : Cert.Pre_finite_inputs.S2x600000.Idx) :
    IntOp.cmpi .sge (e j) 0#32 = 1#1 ∧ IntOp.cmpi .slt (e j) 50000#32 = 1#1 := by
  -- the scalar shape has one index
  haveI : Subsingleton Cert.Pre_finite_inputs.S_.Idx := ⟨fun a b => funext fun d => d.elim0⟩
  unfold Cert.Pre_finite_inputs.fn_part4 at h
  have hred := (IntOp.andi_eq_one.mp h).2
  have hent := IntOp.andi_eq_one.mp (Host.reduce_andi_all _ _ _ _ i hred j)
  exact hent

/-- Under the precondition every entry of the edge list lies in [0, 50000) as a signed word. -/
theorem edges_in_range [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.KernelIdeal.S2x600000.Idx) :
    IntOp.cmpi .sge ((m ((c.tc : Thread Cert.KernelIdeal.nD Cert.KernelIdeal.τ).loc Cert.KernelIdeal.main_arg1) : IVec Cert.KernelIdeal.S2x600000 32) j) 0#32 = 1#1
      ∧ IntOp.cmpi .slt ((m ((c.tc : Thread Cert.KernelIdeal.nD Cert.KernelIdeal.τ).loc Cert.KernelIdeal.main_arg1) : IVec Cert.KernelIdeal.S2x600000 32) j) 50000#32 = 1#1 := by
  have h : Cert.Pre_finite_inputs.fn_part4 (F := Ideal)
      (m ((c.tc : Thread Cert.KernelIdeal.nD Cert.KernelIdeal.τ).loc Cert.KernelIdeal.main_arg1)) _ _ ValueIdx.ix0 = 1#1 :=
    congrFun (hpre c) ValueIdx.ix0
  exact last_part_one _ _ _ _ h j

end Cert.PreRange

end
-- ==== Proof.lean ====
/-
  One round of message passing on a graph of 50000 nodes and 600000 edges: the kernel program — three perceptron
  regions (encode the nodes, compute the edges' messages, update the nodes) with the endpoint reads and the message
  sums done by the host between them — against the reference, which joins (source | target | attribute) into rows of
  257 entries and (encoding | sum) into rows of 256 and multiplies each by one whole first-layer matrix.

  At the ideal values both are ONE function of the argument arrays, `Cert.Spec.G`:
    * each region's output array is its perceptron of the region's input arrays, row by row, so the blocking is
      invisible;
    * a product with a joined row is the sum of the products with its pieces, because a sum over 257 (or 256) terms
      splits at the seams; addition of extended reals is commutative and associative, and nothing else is used, so no
      finiteness is needed;
    * the kernel reads an endpoint's encoding through a guard that replaces the row when the node number is outside
      [0, 49999], where the reference reads the row at the number clamped into range: the two agree exactly when every
      node number lies in [0, 50000), which the precondition states of the edge list;
    * the indexed read and the indexed sum are the same host operations on both sides, applied to equal operands.
-/
import proofs.«426707_j8151847928380_3_alg».proof.Defs
import proofs.«426707_j8151847928380_3_alg».proof.Proof.Gen.Kernel
import proofs.«426707_j8151847928380_3_alg».proof.Proof.Gen.Kernel.Frame
import proofs.«426707_j8151847928380_3_alg».proof.Proof.Gen.KernelIdeal
import proofs.«426707_j8151847928380_3_alg».proof.Proof.Gen.KernelIdeal.Frame
import proofs.«426707_j8151847928380_3_alg».proof.Proof.Gen.ReferenceIdeal
import proofs.«426707_j8151847928380_3_alg».proof.Proof.Gen.ReferenceIdeal.Run
import proofs.«426707_j8151847928380_3_alg».proof.Proof.Gen.Pre_finite_inputs
import proofs.«426707_j8151847928380_3_alg».proof.Proof.RunValue
import proofs.«426707_j8151847928380_3_alg».proof.Proof.Final
import proofs.«426707_j8151847928380_3_alg».proof.Proof.RefValue
import proofs.«426707_j8151847928380_3_alg».proof.Proof.PreRange
import Idealize.ShloMosaic.Adequacy
import Idealize.ShloMosaic.Init

set_option maxRecDepth 16384

noncomputable section

namespace Cert.Proof

open Idealize.ShloMosaic Idealize.SL.Sem

/-- The word-level program runs and keeps its arguments. -/
theorem frame_kernel : Cert.frame_Kernel := fun m ρ _ => Cert.Kernel.Gen.frame m ρ

/-- The idealized program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The two dimension records of the indexed read, one per program, are one record. -/
theorem gather_dims_eq : Cert.ReferenceIdeal.gather_S50000x128_S600000x1_S600000x128_1_0_n_n_0_1_1128 = Cert.KernelIdeal.gather_S50000x128_S600000x1_S600000x128_1_0_n_n_0_1_1128 := rfl
/-- The two dimension records of the indexed sum, one per program, are one record. -/
theorem scatter_dims_eq : Cert.ReferenceIdeal.scatter_S50000x128_S600000x1_S600000x128_1_0_0_1 = Cert.KernelIdeal.scatter_S50000x128_S600000x1_S600000x128_1_0_0_1 := rfl

/-- Both programs end with one round of message passing of the (agreeing) argument arrays. -/
theorem algebraic : Cert.algebraic_KernelIdeal_ReferenceIdeal := by
  intro m ρ m' ρ' hpre hagree
  refine ⟨fun c => Cert.Spec.G Cert.KernelIdeal.gather_S50000x128_S600000x1_S600000x128_1_0_n_n_0_1_1128 Cert.KernelIdeal.scatter_S50000x128_S600000x1_S600000x128_1_0_0_1
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KGlue.value_eq_G m ρ c fun j => Cert.PreRange.edges_in_range m hpre c j), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    refine (Cert.RefValue.result_eq m' c).trans ?_
    rw [e0, e1, e2, e3, e4, e5, e6, e7, e8, e9, e10, e11, e12, e13, e14, gather_dims_eq, scatter_dims_eq]

end Cert.Proof

/-- Everything this certificate claims. -/
theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
